-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x16 .f32) (main_arg3 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x16 .f32 := Host.absf main_arg2
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S1x16 : Shape := ⟨2, ![1, 16]⟩
abbrev S10000x16 : Shape := ⟨2, ![10000, 16]⟩
abbrev S200x10000 : Shape := ⟨2, ![200, 10000]⟩
abbrev S400x16 : Shape := ⟨2, ![400, 16]⟩
abbrev S200x16 : Shape := ⟨2, ![200, 16]⟩

abbrev nBuf : Space → Nat
  | .hbm => 6
  | .vmem => 10
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16, .f32⟩
  | .hbm, ⟨4, _⟩ => ⟨S1x16, .f32⟩
  | .hbm, ⟨5, _⟩ => ⟨S10000x16, .f32⟩
  | .local _ .vmem, ⟨0, _⟩ => ⟨S200x10000, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S10000x128, .f32⟩
  | .local _ .vmem, ⟨5, _⟩ => ⟨S128x16, .f32⟩
  | .local _ .vmem, ⟨6, _⟩ => ⟨S1x16, .f32⟩
  | .local _ .vmem, ⟨7, _⟩ => ⟨S400x16, .f32⟩
  | .local _ .vmem, ⟨8, _⟩ => ⟨S400x16, .f32⟩
  | .local _ .vmem, ⟨9, _⟩ => ⟨S10000x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let c2_i32 : BitVec 32 := 2#32
  let arg0 : BitVec 32 := BitVec.ofNat 32 (i 0).val
  let v8 : BitVec 32 := Scalar.muli c2_i32 arg0
  let c200_i32 : BitVec 32 := 200#32
  let v9 : BitVec 32 := Scalar.muli v8 c200_i32
  let v10 : Index := Scalar.indexCast v9
  let c0_6 : Index := 0#32
  ![v10.toNat, 0]
def k0_off2 (i : grid0.Coords) : Fin 2 → Nat :=
  let c2_i32_14 : BitVec 32 := 2#32
  let arg0 : BitVec 32 := BitVec.ofNat 32 (i 0).val
  let v19 : BitVec 32 := Scalar.muli c2_i32_14 arg0
  let c1_i32 : BitVec 32 := 1#32
  let v20 : BitVec 32 := Scalar.addi v19 c1_i32
  let c200_i32_15 : BitVec 32 := 200#32
  let v21 : BitVec 32 := Scalar.muli v20 c200_i32_15
  let v22 : Index := Scalar.indexCast v21
  let c0_16 : Index := 0#32
  ![v22.toNat, 0]
def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S16_S1x16 : S16.ShapeCasts S1x16
  inb_S10000x128_S10000x128_0_0 : ∀ a, (![0, 0] : Fin 2 → Nat) a + S10000x128.size a ≤ S10000x128.size a
  h_S10000x128 : 0 < S10000x128.numel
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  inb_S200x10000_S200x10000_0_0 : ∀ a, (![0, 0] : Fin 2 → Nat) a + S200x10000.size a ≤ S200x10000.size a
  h_S200x10000 : 0 < S200x10000.numel
  h_S200x16 : 0 < S200x16.numel
  broadcasts_S1x16_S200x16 : S1x16.Broadcasts S200x16
  inb_S400x16_S200x16_0_0 : ∀ a, (![0, 0] : Fin 2 → Nat) a + S200x16.size a ≤ S400x16.size a
  inb_S400x16_S200x16_200_0 : ∀ a, (![200, 0] : Fin 2 → Nat) a + S200x16.size a ≤ S400x16.size a
  dot_S10000x128_S128x16_S10000x16_1_0_0_1_n_n_wf : DotDims.WF S10000x128 S128x16 S10000x16 [1] [0] [0] [1] [] []
  dot_S200x10000_S10000x16_S200x16_1_0_0_1_n_n_wf : DotDims.WF S200x10000 S10000x16 S200x16 [1] [0] [0] [1] [] []
  hrank0 : 0 < grid0.rank
  k0_off1_inb : ∀ i : grid0.Coords, ∀ a, (k0_off1 i) a + S200x16.size a ≤ S10000x16.size a
  k0_off2_inb : ∀ i : grid0.Coords, ∀ a, (k0_off2 i) a + S200x16.size a ≤ S10000x16.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .f32 = 32 ∨ (Rect.block (s := S10000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x16.size a ≤ S128x16.size a
  hwx0_3 : ∀ i : grid0.Coords, EltTy.bits .f32 = 32 ∨ (Rect.block (s := S128x16) S128x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x16.size a ≤ S10000x16.size a
  hwx0_5 : ∀ i : grid0.Coords, EltTy.bits .f32 = 32 ∨ (Rect.block (s := S10000x16) S400x16.size (cc0_transform_5 i) (hinb0_5 i)).WholeWords (EltTy.packing .f32)

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S200x10000_S10000x16_S200x16_1_0_0_1_n_n : DotDims S200x10000 S10000x16 S200x16 where
  lhsContracting := [1]
  rhsContracting := [0]
  lhsNonContracting := [0]
  rhsNonContracting := [1]
  lhsBatch := []
  rhsBatch := []
  wf := dot_S200x10000_S10000x16_S200x16_1_0_0_1_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S400x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S10000x16 : Shape := ⟨2, ![10000, 16]⟩
abbrev S_ : Shape := ⟨0, ![]⟩
abbrev S1x16 : Shape := ⟨2, ![1, 16]⟩

abbrev nBuf : Space → Nat
  | .hbm => 20
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16, .f32⟩
  | .hbm, ⟨4, _⟩ => ⟨S10000x16, .f32⟩
  | .hbm, ⟨5, _⟩ => ⟨S_, .f32⟩
  | .hbm, ⟨6, _⟩ => ⟨S10000x16, .f32⟩
  | .hbm, ⟨7, _⟩ => ⟨S10000x16, .f32⟩
  | .hbm, ⟨8, _⟩ => ⟨S10000x10000, .i32⟩
  | .hbm, ⟨9, _⟩ => ⟨S10000x10000, .i32⟩
  | .hbm, ⟨10, _⟩ => ⟨S_, .i32⟩
  | .hbm, ⟨11, _⟩ => ⟨S10000x10000, .i32⟩
  | .hbm, ⟨12, _⟩ => ⟨S10000x10000, .i32⟩
  | .hbm, ⟨13, _⟩ => ⟨S10000x10000, .i1⟩
  | .hbm, ⟨14, _⟩ => ⟨S10000x10000, .f32⟩
  | .hbm, ⟨15, _⟩ => ⟨S10000x10000, .f32⟩
  | .hbm, ⟨16, _⟩ => ⟨S10000x16, .f32⟩
  | .hbm, ⟨17, _⟩ => ⟨S1x16, .f32⟩
  | .hbm, ⟨18, _⟩ => ⟨S10000x16, .f32⟩
  | .hbm, ⟨19, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]

class Facts₀ : Prop where
  bcast_S_S10000x16 : S_.BroadcastsInDim S10000x16 (![] : Fin 0 → Fin S10000x16.rank)
  bcast_S_S10000x10000 : S_.BroadcastsInDim S10000x10000 (![] : Fin 0 → Fin S10000x10000.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  dot_S10000x128_S128x16_S10000x16_1_0_0_1_n_n_wf : DotDims.WF S10000x128 S128x16 S10000x16 [1] [0] [0] [1] [] []
  dot_S10000x10000_S10000x16_S10000x16_1_0_0_1_n_n_wf : DotDims.WF S10000x10000 S10000x16 S10000x16 [1] [0] [0] [1] [] []

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf

class Facts : Prop extends Facts₀ where

variable [Facts]
-- ==== Proof.K.Base.lean ====
/-
  The fused graph-convolution kernel: what its frame and its value are stated over.
  @main reshapes the bias to one row and enters ONE kernel region on a grid of 25 points. Point t is handed
  rows [400 t, 400 t + 200) and [400 t + 200, 400 t + 400) of the adjacency matrix through two windows on the
  SAME array, the whole feature matrix, the whole weight matrix and the bias row, and writes rows
  [400 t, 400 t + 400) of the result. A scratch of the result's shape holds the support matrix
  relu(feature · W): point 0 computes it, every point reads it.
  Here: the arrays as the region finds them, each window's block at a point, the one branch condition in closed
  form over the grid (it holds at point 0 only), and the memrefs the body is called with.
-/
import proofs.«147104_g16140487098643_cont_week2b_485_7_alg».proof.Proof.Gen.Kernel.Launch
import proofs.«147104_g16140487098643_cont_week2b_485_7_alg».proof.Proof.Gen.Kernel.Skeleton
import proofs.«147104_g16140487098643_cont_week2b_485_7_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffer contents when the region is entered: the launch memory after the bias reshape. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- @main is the reshape, then the region: holding the unscoped buffers at the launch contents it reduces to the
    region holding them at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes its own result only: the four arguments are as launched. -/
theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The branch condition -/

/-- "This is the first grid point", as the body computes it from the grid coordinate. -/
abbrev cond0 (i : grid0.Coords) : Prop := (Scalar.cmpi .ne (Scalar.extui (Scalar.cmpi .eq (BitVec.ofNat 32 (i 0).val) 0#32)) 0#32) = 1#1
/-- It holds at point 0 and nowhere else — decided over the 25 points. -/
theorem hcond0 : ∀ t : Fin cfg0.N, cond0 (grid0.coords t) ↔ t.val = 0 :=
  (by decide +kernel : ∀ t : Fin grid0.N, cond0 (grid0.coords t) ↔ t.val = 0)

/-- No window is ever idle. -/
theorem liveAt : ∀ (w : Fin cfg0.W) (t : Fin cfg0.N), cfg0.idle w (grid0.coords t) = false := by decide +kernel

/-! ## The memrefs the body is called with -/

abbrev ms0 (t : Fin cfg0.N) : Memref sig .tc .vmem S200x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S200x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S10000x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x16 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x16 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S400x16 .f32 := win0_5.stage (cfg0.slots t 5)
abbrev hs5 (t : Fin cfg0.N) : (ms5 t).IsWhole := hstage0_5 ((cfg0.slots t 5).cast nbuf0_5)
/-- The scratch that holds the support matrix: a whole scoped buffer of the kernel's own. -/
abbrev scM : Memref sig .tc .vmem S10000x16 .f32 := Memref.whole cc0_scratch0
/-- The output's staging buffer and the scratch as views: what they hold is stated through these. -/
abbrev VO : View sig .tc .vmem S400x16 .f32 := (Memref.whole cc0_stg5_0 : Memref sig .tc .vmem S400x16 .f32).view
abbrev VS : View sig .tc .vmem S10000x16 .f32 := scM.view

/-- The core's scoped buffers that are no staging buffer are the scratch, owned whole at some contents. -/
theorem scopedRest_scratch (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; rfl

end Cert.Kernel.Frm

end
-- ==== Proof.K.RunA.lean ====
/-
  The body at the first grid point: the branch is taken. It stores the support matrix relu(feature · W) into the
  scratch, whole, then reads it back for the two halves of the output's buffer as every later point does.
-/
import proofs.«147104_g16140487098643_cont_week2b_485_7_alg».proof.Proof.K.Base

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in the output's staging memref and in the scratch, as pieces (last first), when the
    branch IS taken, with the proof that on whole memrefs — the five inputs' at their contents `x·`, the output's and
    the scratch at anything — the body runs to the continuation holding the inputs as they were and the output's
    buffer and the scratch with their pieces written. The pieces are the witness the run finds. -/
noncomputable def kernelRunA (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S400x16 .f32) (harg6 : arg6.IsWhole) (arg7 : Memref sig .tc .vmem S10000x16 .f32) (harg7 : arg7.IsWhole) (hc : cond0 i)
    (x0 : Vec F S200x10000 .f32) (x1 : Vec F S200x10000 .f32) (x2 : Vec F S10000x128 .f32) (x3 : Vec F S128x16 .f32) (x4 : Vec F S1x16 .f32) :
    Σ' (L5 : List (View.Piece (Elt F) S400x16 .f32)), { LS : List (View.Piece (Elt F) S10000x16 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS)) -∗ K ⟨⟩))
          ⊢ wp frame (wpE (defs₀ (F := F)) Variants.none c none) E (cc0__fused_kernel i arg1 harg1 arg2 harg2 arg3 harg3 arg4 harg4 arg5 harg5 arg6 harg6 arg7 harg7) K } := by
  refine ⟨?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds, %fs, -, HS⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    iexists _; iexact HS

end Cert.Kernel.Frm

end
-- ==== Proof.K.RunB.lean ====
/-
  The body at a grid point other than the first: the branch is not taken, the scratch — at the support matrix the
  first point left — is only read, and the two stores fill the two halves of the output's buffer.
-/
import proofs.«147104_g16140487098643_cont_week2b_485_7_alg».proof.Proof.K.Base

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's two stores leave in the output's staging memref, as pieces (last first), when the branch is NOT
    taken, with the proof that on whole memrefs — the five inputs' at their contents `x·`, the scratch at `xs`, the
    output's at anything — the body runs to the continuation holding the inputs and the scratch as they were and
    the output's buffer with the pieces written. The pieces are the witness the run finds. -/
noncomputable def kernelRunB (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S400x16 .f32) (harg6 : arg6.IsWhole) (arg7 : Memref sig .tc .vmem S10000x16 .f32) (harg7 : arg7.IsWhole) (hc : ¬cond0 i)
    (x0 : Vec F S200x10000 .f32) (x1 : Vec F S200x10000 .f32) (x2 : Vec F S10000x128 .f32) (x3 : Vec F S128x16 .f32) (x4 : Vec F S1x16 .f32) (xs : Vec F S10000x16 .f32) :
    { L5 : List (View.Piece (Elt F) S400x16 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xs) -∗ K ⟨⟩))
          ⊢ wp frame (wpE (defs₀ (F := F)) Variants.none c none) E (cc0__fused_kernel i arg1 harg1 arg2 harg2 arg3 harg3 arg4 harg4 arg5 harg5 arg6 harg6 arg7 harg7) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg1.eq_unread hf0; obtain rfl := harg2.eq_unread hf1; obtain rfl := harg3.eq_unread hf2
    obtain rfl := harg4.eq_unread hf3; obtain rfl := harg5.eq_unread hf4; obtain rfl := harg7.eq_unread hfs
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    iexists _; isplitr; · ipureintro; exact harg7.read_unread _
    iexact HS

end Cert.Kernel.Frm

end
-- ==== Proof.K.Outs.lean ====
/-
  What the body leaves, point by point, and the proof data of the one pipeline.
  The scratch is stored once, whole, at the first point: afterwards it holds the support matrix `supp`, a function
  of the whole feature and weight matrices, and no later point changes it. The output's buffer after point t is the
  two stored halves read back: computed from the point's two adjacency blocks, the bias row and the support matrix.
  The adjacency matrix reaches the kernel through two windows: the pipeline holds it at the left and at the right
  half of the full share, one half per window.
-/
import proofs.«147104_g16140487098643_cont_week2b_485_7_alg».proof.Proof.K.RunA
import proofs.«147104_g16140487098643_cont_week2b_485_7_alg».proof.Proof.K.RunB

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pieces cover their buffers -/

/-- At the first point the two stored halves tile the output's buffer. -/
theorem coverA (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S400x16 .f32) (harg6 : arg6.IsWhole) (arg7 : Memref sig .tc .vmem S10000x16 .f32) (harg7 : arg7.IsWhole) (hc : cond0 i) (x0 : Vec F S200x10000 .f32) (x1 : Vec F S200x10000 .f32) (x2 : Vec F S10000x128 .f32) (x3 : Vec F S128x16 .f32) (x4 : Vec F S1x16 .f32) (y : S400x16.Idx) :
    ∃ pc ∈ (kernelRunA c i arg1 harg1 arg2 harg2 arg3 harg3 arg4 harg4 arg5 harg5 arg6 harg6 arg7 harg7 hc x0 x1 x2 x3 x4).1, y ∈ pc.1.set :=
  View.cover_of_tiledL (kernelRunA c i arg1 harg1 arg2 harg2 arg3 harg3 arg4 harg4 arg5 harg5 arg6 harg6 arg7 harg7 hc x0 x1 x2 x3 x4).1 S200x16.size (by sl_kernel_rfl) y

/-- The one store into the scratch covers it. -/
theorem scoverA (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S400x16 .f32) (harg6 : arg6.IsWhole) (arg7 : Memref sig .tc .vmem S10000x16 .f32) (harg7 : arg7.IsWhole) (hc : cond0 i) (x0 : Vec F S200x10000 .f32) (x1 : Vec F S200x10000 .f32) (x2 : Vec F S10000x128 .f32) (x3 : Vec F S128x16 .f32) (x4 : Vec F S1x16 .f32) (y : S10000x16.Idx) :
    ∃ pc ∈ (kernelRunA c i arg1 harg1 arg2 harg2 arg3 harg3 arg4 harg4 arg5 harg5 arg6 harg6 arg7 harg7 hc x0 x1 x2 x3 x4).2.1, y ∈ pc.1.set :=
  View.cover_of_tiledL (kernelRunA c i arg1 harg1 arg2 harg2 arg3 harg3 arg4 harg4 arg5 harg5 arg6 harg6 arg7 harg7 hc x0 x1 x2 x3 x4).2.1 S10000x16.size (by sl_kernel_rfl) y

/-- At a later point the two stored halves tile the output's buffer. -/
theorem coverB (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S400x16 .f32) (harg6 : arg6.IsWhole) (arg7 : Memref sig .tc .vmem S10000x16 .f32) (harg7 : arg7.IsWhole) (hc : ¬cond0 i) (x0 : Vec F S200x10000 .f32) (x1 : Vec F S200x10000 .f32) (x2 : Vec F S10000x128 .f32) (x3 : Vec F S128x16 .f32) (x4 : Vec F S1x16 .f32) (xs : Vec F S10000x16 .f32) (y : S400x16.Idx) :
    ∃ pc ∈ (kernelRunB c i arg1 harg1 arg2 harg2 arg3 harg3 arg4 harg4 arg5 harg5 arg6 harg6 arg7 harg7 hc x0 x1 x2 x3 x4 xs).1, y ∈ pc.1.set :=
  View.cover_of_tiledL (kernelRunB c i arg1 harg1 arg2 harg2 arg3 harg3 arg4 harg4 arg5 harg5 arg6 harg6 arg7 harg7 hc x0 x1 x2 x3 x4 xs).1 S200x16.size (by sl_kernel_rfl) y

/-- What the first point leaves in the output's buffer: its pieces read back. -/
def outA (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S400x16 .f32) (harg6 : arg6.IsWhole) (arg7 : Memref sig .tc .vmem S10000x16 .f32) (harg7 : arg7.IsWhole) (hc : cond0 i) (x0 : Vec F S200x10000 .f32) (x1 : Vec F S200x10000 .f32) (x2 : Vec F S10000x128 .f32) (x3 : Vec F S128x16 .f32) (x4 : Vec F S1x16 .f32) : Vec F S400x16 .f32 :=
  VO.read (Elt F) (VO.writes (Elt F) VO.junk (kernelRunA c i arg1 harg1 arg2 harg2 arg3 harg3 arg4 harg4 arg5 harg5 arg6 harg6 arg7 harg7 hc x0 x1 x2 x3 x4).1)

/-- What the first point leaves in the scratch: its piece read back. -/
def soutA (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S400x16 .f32) (harg6 : arg6.IsWhole) (arg7 : Memref sig .tc .vmem S10000x16 .f32) (harg7 : arg7.IsWhole) (hc : cond0 i) (x0 : Vec F S200x10000 .f32) (x1 : Vec F S200x10000 .f32) (x2 : Vec F S10000x128 .f32) (x3 : Vec F S128x16 .f32) (x4 : Vec F S1x16 .f32) : Vec F S10000x16 .f32 :=
  VS.read (Elt F) (VS.writes (Elt F) VS.junk (kernelRunA c i arg1 harg1 arg2 harg2 arg3 harg3 arg4 harg4 arg5 harg5 arg6 harg6 arg7 harg7 hc x0 x1 x2 x3 x4).2.1)

/-- What a later point leaves in the output's buffer: its pieces read back. -/
def outB (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S400x16 .f32) (harg6 : arg6.IsWhole) (arg7 : Memref sig .tc .vmem S10000x16 .f32) (harg7 : arg7.IsWhole) (hc : ¬cond0 i) (x0 : Vec F S200x10000 .f32) (x1 : Vec F S200x10000 .f32) (x2 : Vec F S10000x128 .f32) (x3 : Vec F S128x16 .f32) (x4 : Vec F S1x16 .f32) (xs : Vec F S10000x16 .f32) : Vec F S400x16 .f32 :=
  VO.read (Elt F) (VO.writes (Elt F) VO.junk (kernelRunB c i arg1 harg1 arg2 harg2 arg3 harg3 arg4 harg4 arg5 harg5 arg6 harg6 arg7 harg7 hc x0 x1 x2 x3 x4 xs).1)

/-! ## Point by point -/

/-- The first grid point. -/
abbrev t0 : Fin cfg0.N := ⟨0, by have : cfg0.N = 25 := N_0; omega⟩

theorem hc_t0 : cond0 (grid0.coords t0) := (hcond0 t0).mpr rfl

/-- THE SUPPORT MATRIX as the scratch holds it from the first point on. -/
def supp (c : Dev nD) : Vec F S10000x16 .f32 :=
  soutA c (grid0.coords t0) (ms0 t0) (hs0 t0) (ms1 t0) (hs1 t0) (ms2 t0) (hs2 t0) (ms3 t0) (hs3 t0) (ms4 t0) (hs4 t0) (ms5 t0) (hs5 t0) scM (Memref.isWhole_whole _) hc_t0 (iblk m c 0 t0) (iblk m c 1 t0) (iblk m c 2 t0) (iblk m c 3 t0) (iblk m c 4 t0)

/-- What the output's buffer holds after the body at point `t`. -/
def outAt (c : Dev nD) (t : Fin cfg0.N) : Vec F S400x16 .f32 :=
  if h : t.val = 0 then
    outA c (grid0.coords t) (ms0 t) (hs0 t) (ms1 t) (hs1 t) (ms2 t) (hs2 t) (ms3 t) (hs3 t) (ms4 t) (hs4 t) (ms5 t) (hs5 t) scM (Memref.isWhole_whole _) ((hcond0 t).mpr h) (iblk m c 0 t) (iblk m c 1 t) (iblk m c 2 t) (iblk m c 3 t) (iblk m c 4 t)
  else
    outB c (grid0.coords t) (ms0 t) (hs0 t) (ms1 t) (hs1 t) (ms2 t) (hs2 t) (ms3 t) (hs3 t) (ms4 t) (hs4 t) (ms5 t) (hs5 t) scM (Memref.isWhole_whole _) (fun hc => h ((hcond0 t).mp hc)) (iblk m c 0 t) (iblk m c 1 t) (iblk m c 2 t) (iblk m c 3 t) (iblk m c 4 t) (supp m c)

theorem outAt_zero (c : Dev nD) (t : Fin cfg0.N) (h : t.val = 0) :
    outAt m c t = outA c (grid0.coords t) (ms0 t) (hs0 t) (ms1 t) (hs1 t) (ms2 t) (hs2 t) (ms3 t) (hs3 t) (ms4 t) (hs4 t) (ms5 t) (hs5 t) scM (Memref.isWhole_whole _) ((hcond0 t).mpr h) (iblk m c 0 t) (iblk m c 1 t) (iblk m c 2 t) (iblk m c 3 t) (iblk m c 4 t) := dif_pos h

theorem outAt_pos (c : Dev nD) (t : Fin cfg0.N) (h : ¬t.val = 0) :
    outAt m c t = outB c (grid0.coords t) (ms0 t) (hs0 t) (ms1 t) (hs1 t) (ms2 t) (hs2 t) (ms3 t) (hs3 t) (ms4 t) (hs4 t) (ms5 t) (hs5 t) scM (Memref.isWhole_whole _) (fun hc => h ((hcond0 t).mp hc)) (iblk m c 0 t) (iblk m c 1 t) (iblk m c 2 t) (iblk m c 3 t) (iblk m c 4 t) (supp m c) := dif_neg h

/-- The region invariant before position `n`: before the first point the scratch at anything; afterwards at the
    support matrix. -/
def PhiS (c : Dev nD) : (n : ℕ) → sProp 𝕄
  | 0 => iprop(∃ d, owns (c : Thread nD τ) scM fullShare d)
  | _ + 1 => owns (c : Thread nD τ) scM fullShare (supp m c)

theorem PhiS_zero (c : Dev nD) (n : ℕ) (hz : n = 0) : PhiS m c n = iprop(∃ d, owns (c : Thread nD τ) scM fullShare d) := by
  subst hz; rfl

theorem PhiS_pos (c : Dev nD) (n : ℕ) (hz : n ≠ 0) : PhiS m c n = owns (c : Thread nD τ) scM fullShare (supp m c) := by
  cases n with
  | zero => exact absurd rfl hz
  | succ n => rfl

/-! ## The pipeline's proof data -/

/-- The proof data of the one pipeline on core `c`: the arrays as the region finds them; after the body each input's
    buffer at its block and the output's at `outAt`; the invariant `PhiS`; nothing owed; the adjacency matrix's two
    windows at the two halves of the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := PhiS m c t.val
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; simp only [Fin.coe_castSucc]

theorem Phi_succ (c : Dev nD) (t : Fin cfg0.N) : (dats m 0 c).Φ t.succ = owns (c : Thread nD τ) scM fullShare (supp m c) := by
  dsimp only [dats]; rfl

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outAt m c t := by dsimp only [dats]

/-- Each input's current staging buffer holds its block at every point, fetched there or not: the body leaves it in
    place, and an unfetched window's block index has not moved. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

end Cert.Kernel.Frm

end
-- ==== Proof.K.Body.lean ====
/-
  The body obligation: at every grid point, handed the invariant and each window's current buffer at what it then
  holds, the body runs to the invariant at the next point and each buffer at what the proof data say it leaves.
  At the first point the scratch arrives at anything and leaves at the support matrix; at a later point it arrives
  at the support matrix and leaves untouched. The five inputs' buffers hold their blocks before and after.
-/
import proofs.«147104_g16140487098643_cont_week2b_485_7_alg».proof.Proof.K.Outs

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`: the invariant, what the core owes, the six windows' buffers. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 400000 in
/-- The body at the first point: the scratch arrives at anything and leaves at the support matrix. -/
theorem sound_body_first (c : Dev nD) :
    bodyPre m c t0 ⊢ wp frame (wpE (defs₀ (F := F)) Variants.none c none) Set.univ (bodyAt0 t0) (fun _ => bodyPost m c t0) := by
  unfold bodyPre bodyPost bodyAt0
  simp only [before_0, before_1, before_2, before_3, before_4]
  rw [show (dats m 0 c).owesAt () t0.succ = (dats m 0 c).owesAt () t0.castSucc from rfl]
  rw [Phi_succ, Phi_castSucc]
  rw [show (dats m 0 c).leavesExact 0 t0 = owns (c : Thread nD τ) (ms0 t0) fullShare ((dats m 0 c).after 0 t0) from by
    unfold Dat.leavesExact; rw [liveAt 0 t0], after_0]
  rw [show (dats m 0 c).leavesExact 1 t0 = owns (c : Thread nD τ) (ms1 t0) fullShare ((dats m 0 c).after 1 t0) from by
    unfold Dat.leavesExact; rw [liveAt 1 t0], after_1]
  rw [show (dats m 0 c).leavesExact 2 t0 = owns (c : Thread nD τ) (ms2 t0) fullShare ((dats m 0 c).after 2 t0) from by
    unfold Dat.leavesExact; rw [liveAt 2 t0], after_2]
  rw [show (dats m 0 c).leavesExact 3 t0 = owns (c : Thread nD τ) (ms3 t0) fullShare ((dats m 0 c).after 3 t0) from by
    unfold Dat.leavesExact; rw [liveAt 3 t0], after_3]
  rw [show (dats m 0 c).leavesExact 4 t0 = owns (c : Thread nD τ) (ms4 t0) fullShare ((dats m 0 c).after 4 t0) from by
    unfold Dat.leavesExact; rw [liveAt 4 t0], after_4]
  rw [show (dats m 0 c).leavesExact 5 t0 = owns (c : Thread nD τ) (ms5 t0) fullShare ((dats m 0 c).after 5 t0) from by
    unfold Dat.leavesExact; rw [liveAt 5 t0], after_5]
  rw [PhiS_zero m c _ rfl, outAt_zero m c t0 rfl]
  unfold outA supp soutA
  iintro ⟨⟨%ds, HS⟩, Ho, ⟨%d0, H0⟩, ⟨%d1, H1⟩, ⟨%d2, H2⟩, ⟨%d3, H3⟩, ⟨%d4, H4⟩, ⟨%d5, H5⟩⟩
  iapply ((kernelRunA c (grid0.coords t0) (ms0 t0) (hs0 t0) (ms1 t0) (hs1 t0) (ms2 t0) (hs2 t0) (ms3 t0) (hs3 t0) (ms4 t0) (hs4 t0) (ms5 t0) (hs5 t0) scM (Memref.isWhole_whole _) hc_t0 (iblk m c 0 t0) (iblk m c 1 t0) (iblk m c 2 t0) (iblk m c 3 t0) (iblk m c 4 t0)).2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS]; · iexists _; iexact HS
  iintro ⟨H0, H1, H2, H3, H4, ⟨%e5, H5⟩, ⟨%es, HS⟩⟩
  isplitl [HS]
  · unfold owns; iexists _; isplitr
    swap; · iexact HS
    ipureintro
    exact View.read_writes_of_cover _ _ _ _ _ (fun y => scoverA c (grid0.coords t0) (ms0 t0) (hs0 t0) (ms1 t0) (hs1 t0) (ms2 t0) (hs2 t0) (ms3 t0) (hs3 t0) (ms4 t0) (hs4 t0) (ms5 t0) (hs5 t0) scM (Memref.isWhole_whole _) hc_t0 (iblk m c 0 t0) (iblk m c 1 t0) (iblk m c 2 t0) (iblk m c 3 t0) (iblk m c 4 t0) y)
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro
  exact View.read_writes_of_cover _ _ _ _ _ (fun y => coverA c (grid0.coords t0) (ms0 t0) (hs0 t0) (ms1 t0) (hs1 t0) (ms2 t0) (hs2 t0) (ms3 t0) (hs3 t0) (ms4 t0) (hs4 t0) (ms5 t0) (hs5 t0) scM (Memref.isWhole_whole _) hc_t0 (iblk m c 0 t0) (iblk m c 1 t0) (iblk m c 2 t0) (iblk m c 3 t0) (iblk m c 4 t0) y)

set_option maxHeartbeats 400000 in
/-- The body at a later point: the scratch arrives at the support matrix and is only read. -/
theorem sound_body_later (c : Dev nD) (t : Fin cfg0.N) (hz : ¬t.val = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [Phi_succ, Phi_castSucc]
  rw [show (dats m 0 c).leavesExact 0 t = owns (c : Thread nD τ) (ms0 t) fullShare ((dats m 0 c).after 0 t) from by
    unfold Dat.leavesExact; rw [liveAt 0 t], after_0]
  rw [show (dats m 0 c).leavesExact 1 t = owns (c : Thread nD τ) (ms1 t) fullShare ((dats m 0 c).after 1 t) from by
    unfold Dat.leavesExact; rw [liveAt 1 t], after_1]
  rw [show (dats m 0 c).leavesExact 2 t = owns (c : Thread nD τ) (ms2 t) fullShare ((dats m 0 c).after 2 t) from by
    unfold Dat.leavesExact; rw [liveAt 2 t], after_2]
  rw [show (dats m 0 c).leavesExact 3 t = owns (c : Thread nD τ) (ms3 t) fullShare ((dats m 0 c).after 3 t) from by
    unfold Dat.leavesExact; rw [liveAt 3 t], after_3]
  rw [show (dats m 0 c).leavesExact 4 t = owns (c : Thread nD τ) (ms4 t) fullShare ((dats m 0 c).after 4 t) from by
    unfold Dat.leavesExact; rw [liveAt 4 t], after_4]
  rw [show (dats m 0 c).leavesExact 5 t = owns (c : Thread nD τ) (ms5 t) fullShare ((dats m 0 c).after 5 t) from by
    unfold Dat.leavesExact; rw [liveAt 5 t], after_5]
  rw [PhiS_pos m c _ hz, outAt_pos m c t hz]
  unfold outB
  iintro ⟨HS, Ho, ⟨%d0, H0⟩, ⟨%d1, H1⟩, ⟨%d2, H2⟩, ⟨%d3, H3⟩, ⟨%d4, H4⟩, ⟨%d5, H5⟩⟩
  iapply ((kernelRunB c (grid0.coords t) (ms0 t) (hs0 t) (ms1 t) (hs1 t) (ms2 t) (hs2 t) (ms3 t) (hs3 t) (ms4 t) (hs4 t) (ms5 t) (hs5 t) scM (Memref.isWhole_whole _) (fun hc => hz ((hcond0 t).mp hc)) (iblk m c 0 t) (iblk m c 1 t) (iblk m c 2 t) (iblk m c 3 t) (iblk m c 4 t) (supp m c)).2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS]; · iexact HS
  iintro ⟨H0, H1, H2, H3, H4, ⟨%e5, H5⟩, HS⟩
  isplitl [HS]; · iexact HS
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro
  exact View.read_writes_of_cover _ _ _ _ _ (fun y => coverB c (grid0.coords t) (ms0 t) (hs0 t) (ms1 t) (hs1 t) (ms2 t) (hs2 t) (ms3 t) (hs3 t) (ms4 t) (hs4 t) (ms5 t) (hs5 t) scM (Memref.isWhole_whole _) (fun hc => hz ((hcond0 t).mp hc)) (iblk m c 0 t) (iblk m c 1 t) (iblk m c 2 t) (iblk m c 3 t) (iblk m c 4 t) (supp m c) y)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases hz : t.val = 0
  · obtain rfl : t = t0 := Fin.ext hz
    exact sound_body_first m c
  · exact sound_body_later m c t hz

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Frm

end
-- ==== Proof.K.Launch.lean ====
/-
  The launch and the run. The adjacency matrix is handed to the region once and read through two windows: its
  buffer, whole at the full share when the region is entered, is split into a left and a right half share, one per
  window. The bias vector bypasses the region (the kernel reads its reshaped row) and is read back at the end. The
  run ends with every array of the pipeline at what the library computes from the proof data — the inputs as they
  were, the result array overwritten block by block by what each point left — and the bias vector untouched.
-/
import proofs.«147104_g16140487098643_cont_week2b_485_7_alg».proof.Proof.K.Body

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 400000

/-! ## The arrays at the region's entry, window by window -/

/-- The five distinct buffers behind the six windows' arrays. -/
theorem arr_refs : Finset.univ.image (Pipeline.arrRef spec0)
    = ([main_arg1, main_arg0, main_arg2, main_v0, main_v1] : List (Ref sig .tc)).toFinset := by decide

/-- The pipeline's arrays at entry, spelled window by window: the adjacency matrix twice, at the two half shares. -/
theorem arrays_entry (c : Dev nD) :
    ((dats m 0 c).arrays (fun w => (dats m 0 c).arrAt w 0) : sProp 𝕄)
      = iprop((((c : Thread nD τ).loc main_arg1) ↦{fullShare.left} V m c main_arg1)
          ∗ (((c : Thread nD τ).loc main_arg1) ↦{fullShare.right} V m c main_arg1)
          ∗ (((c : Thread nD τ).loc main_arg0) ↦{fullShare} V m c main_arg0)
          ∗ (((c : Thread nD τ).loc main_arg2) ↦{fullShare} V m c main_arg2)
          ∗ (((c : Thread nD τ).loc main_v0) ↦{fullShare} V m c main_v0)
          ∗ (((c : Thread nD τ).loc main_v1) ↦{fullShare} V m c main_v1)) := by
  unfold Dat.arrays
  rw [bigSep_W0]
  rw [(arr_whole0 0).set_eq_univ, (arr_whole0 2).set_eq_univ, (arr_whole0 3).set_eq_univ,
    (arr_whole0 4).set_eq_univ, (arr_whole0 5).set_eq_univ]
  rfl

/-- What the launch hands the pipeline of the arrays' buffers makes the proof data's arrays at entry. -/
theorem hsplit (c : Dev nD) :
    (Pipeline.arrBufs (Ix := Unit) (Name := ℕ) (U := UR sig nD τ) (Lvl := ℕ) spec0 c (V m c) : sProp 𝕄)
      ⊢ (dats m 0 c).arrays (fun w => (dats m 0 c).arrAt w 0) := by
  rw [arrays_entry]
  unfold Pipeline.arrBufs
  rw [show (bigSep (Finset.univ.image (Pipeline.arrRef spec0)) fun b => (((c : Thread nD τ).loc b) ↦{fullShare} V m c b : sProp 𝕄))
      = iprop((((c : Thread nD τ).loc main_arg1) ↦{fullShare} V m c main_arg1)
          ∗ (((c : Thread nD τ).loc main_arg0) ↦{fullShare} V m c main_arg0)
          ∗ (((c : Thread nD τ).loc main_arg2) ↦{fullShare} V m c main_arg2)
          ∗ (((c : Thread nD τ).loc main_v0) ↦{fullShare} V m c main_v0)
          ∗ (((c : Thread nD τ).loc main_v1) ↦{fullShare} V m c main_v1))
    from bigSep_eq_bigSepL_of_eq _ arr_refs (by decide) _]
  iintro ⟨H1, H0, H2, H3, H4⟩
  ihave H1' := (pointsTo_share (PosShare.mem_left_op_right fullShare)).1 $$ H1
  icases H1' with ⟨H1l, H1r⟩
  isplitl [H1l]; · iexact H1l
  isplitl [H1r]; · iexact H1r
  isplitl [H0]; · iexact H0
  isplitl [H2]; · iexact H2
  isplitl [H3]; · iexact H3
  iexact H4

/-! ## The region's entry and exit -/

/-- What the launch hands the region of the scoped buffers is the invariant before the first point. -/
theorem hin (c : Dev nD) : iprop(emp ∗ Pipeline.scopedRest spec0 c) ⊢ (dats m 0 c).Φ 0 := by
  rw [show (dats m 0 c).Φ 0 = PhiS m c 0 from rfl, PhiS_zero m c 0 rfl, scopedRest_scratch]
  iintro ⟨-, H⟩; iexact H

/-- After the last point the invariant gives the scratch back, its contents forgotten. -/
theorem hout (c : Dev nD) : (dats m 0 c).Φ (Fin.last cfg0.N) ⊢ iprop(emp ∗ Pipeline.scopedRest spec0 c) := by
  rw [show (dats m 0 c).Φ (Fin.last cfg0.N) = PhiS m c (Fin.last cfg0.N).val from rfl,
    PhiS_pos m c _ (by rw [Fin.val_last]; have : cfg0.N = 25 := N_0; omega), scopedRest_scratch]
  iintro H; isplitr; · iempintro
  iexists _; iexact H

/-! ## The run -/

/-- The pipeline's launch element: every staging cell's owner at round 0 and a duty token per transfer. -/
def u₀ : UR sig nD τ := initOf (Pipeline.cells cfgs cellOf_inj) (Pipeline.launchToks cfgs cellOf_inj)

set_option backward.isDefEq.respectTransparency.types false in
/-- At the compiled mesh, for any values, from any memory with zero counters: every weakly fair execution of @main on
    the TensorCores terminates, and every final state has every array of the pipeline at what the library computes
    from the proof data and every other unscoped buffer as the region found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := u₀) (hu₀ := BI.Entails.refl _)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := hin m) (hout := hout m)
    (QY := fun c s => ∀ b ∈ Pipeline.restRefs sig spec0, s.mem ((c : Thread nD τ).loc b) = V m c b)
    (hY := fun c s' => by
      iintro ⟨-, HU, HSI⟩
      unfold Pipeline.unscopedRest
      imodintro
      iapply (pointsTo_read_all (Pipeline.restRefs sig spec0) (fun b => (c : Thread nD τ).loc b) (V m c) s')
      isplitl [HU] <;> iassumption)
    (hQ := fun s h => (show Pipeline.FramePost cfgs (dats m) 0 (V m) (⟨⟩, s) from fun c => ⟨(h c).1, (h c).2⟩))

/-- info: 'Cert.Kernel.Frm.run_main' depends on axioms: [propext, Classical.choice, Quot.sound] -/
#guard_msgs in #print axioms run_main

/-! ## The frame -/

theorem arg3_rest : main_arg3 ∈ Pipeline.restRefs sig spec0 := by decide

/-- THE FRAME: the program runs to the end, nothing faults, and its four argument arrays end as they began. Three are
    arrays of input windows, which the pipeline never writes; the bias vector bypasses the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 2).trans (((dats m 0 c).arrAt_in 2 rfl _).trans ((A_eq m c 2).trans (V_main_arg0 m c))),
     ((h c).1 0).trans (((dats m 0 c).arrAt_in 0 rfl _).trans ((A_eq m c 0).trans (V_main_arg1 m c))),
     ((h c).1 3).trans (((dats m 0 c).arrAt_in 3 rfl _).trans ((A_eq m c 3).trans (V_main_arg2 m c))),
     ((h c).2 main_arg3 arg3_rest).trans (V_main_arg3 m c)⟩) (run_main m ρ)

end Cert.Kernel.Frm

end
-- ==== Proof.KI.Base.lean ====
/-
  The fused graph-convolution kernel: what its frame and its value are stated over.
  @main reshapes the bias to one row and enters ONE kernel region on a grid of 25 points. Point t is handed
  rows [400 t, 400 t + 200) and [400 t + 200, 400 t + 400) of the adjacency matrix through two windows on the
  SAME array, the whole feature matrix, the whole weight matrix and the bias row, and writes rows
  [400 t, 400 t + 400) of the result. A scratch of the result's shape holds the support matrix
  relu(feature · W): point 0 computes it, every point reads it.
  Here: the arrays as the region finds them, each window's block at a point, the one branch condition in closed
  form over the grid (it holds at point 0 only), and the memrefs the body is called with.
-/
import proofs.«147104_g16140487098643_cont_week2b_485_7_alg».proof.Proof.Gen.KernelIdeal.Launch
import proofs.«147104_g16140487098643_cont_week2b_485_7_alg».proof.Proof.Gen.KernelIdeal.Skeleton
import proofs.«147104_g16140487098643_cont_week2b_485_7_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffer contents when the region is entered: the launch memory after the bias reshape. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- @main is the reshape, then the region: holding the unscoped buffers at the launch contents it reduces to the
    region holding them at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes its own result only: the four arguments are as launched. -/
theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The branch condition -/

/-- "This is the first grid point", as the body computes it from the grid coordinate. -/
abbrev cond0 (i : grid0.Coords) : Prop := (Scalar.cmpi .ne (Scalar.extui (Scalar.cmpi .eq (BitVec.ofNat 32 (i 0).val) 0#32)) 0#32) = 1#1
/-- It holds at point 0 and nowhere else — decided over the 25 points. -/
theorem hcond0 : ∀ t : Fin cfg0.N, cond0 (grid0.coords t) ↔ t.val = 0 :=
  (by decide +kernel : ∀ t : Fin grid0.N, cond0 (grid0.coords t) ↔ t.val = 0)

/-- No window is ever idle. -/
theorem liveAt : ∀ (w : Fin cfg0.W) (t : Fin cfg0.N), cfg0.idle w (grid0.coords t) = false := by decide +kernel

/-! ## The memrefs the body is called with -/

abbrev ms0 (t : Fin cfg0.N) : Memref sig .tc .vmem S200x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S200x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S10000x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x16 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x16 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S400x16 .f32 := win0_5.stage (cfg0.slots t 5)
abbrev hs5 (t : Fin cfg0.N) : (ms5 t).IsWhole := hstage0_5 ((cfg0.slots t 5).cast nbuf0_5)
/-- The scratch that holds the support matrix: a whole scoped buffer of the kernel's own. -/
abbrev scM : Memref sig .tc .vmem S10000x16 .f32 := Memref.whole cc0_scratch0
/-- The output's staging buffer and the scratch as views: what they hold is stated through these. -/
abbrev VO : View sig .tc .vmem S400x16 .f32 := (Memref.whole cc0_stg5_0 : Memref sig .tc .vmem S400x16 .f32).view
abbrev VS : View sig .tc .vmem S10000x16 .f32 := scM.view

/-- The core's scoped buffers that are no staging buffer are the scratch, owned whole at some contents. -/
theorem scopedRest_scratch (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; rfl

end Cert.KernelIdeal.Frm

end
-- ==== Proof.KI.RunA.lean ====
/-
  The body at the first grid point: the branch is taken. It stores the support matrix relu(feature · W) into the
  scratch, whole, then reads it back for the two halves of the output's buffer as every later point does.
-/
import proofs.«147104_g16140487098643_cont_week2b_485_7_alg».proof.Proof.KI.Base

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in the output's staging memref and in the scratch, as pieces (last first), when the
    branch IS taken, with the proof that on whole memrefs — the five inputs' at their contents `x·`, the output's and
    the scratch at anything — the body runs to the continuation holding the inputs as they were and the output's
    buffer and the scratch with their pieces written. The pieces are the witness the run finds. -/
noncomputable def kernelRunA (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S400x16 .f32) (harg6 : arg6.IsWhole) (arg7 : Memref sig .tc .vmem S10000x16 .f32) (harg7 : arg7.IsWhole) (hc : cond0 i)
    (x0 : Vec F S200x10000 .f32) (x1 : Vec F S200x10000 .f32) (x2 : Vec F S10000x128 .f32) (x3 : Vec F S128x16 .f32) (x4 : Vec F S1x16 .f32) :
    Σ' (L5 : List (View.Piece (Elt F) S400x16 .f32)), { LS : List (View.Piece (Elt F) S10000x16 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS)) -∗ K ⟨⟩))
          ⊢ wp frame (wpE (defs₀ (F := F)) Variants.none c none) E (cc0__fused_kernel i arg1 harg1 arg2 harg2 arg3 harg3 arg4 harg4 arg5 harg5 arg6 harg6 arg7 harg7) K } := by
  refine ⟨?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds, %fs, -, HS⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    iexists _; iexact HS

end Cert.KernelIdeal.Frm

end
-- ==== Proof.KI.RunB.lean ====
/-
  The body at a grid point other than the first: the branch is not taken, the scratch — at the support matrix the
  first point left — is only read, and the two stores fill the two halves of the output's buffer.
-/
import proofs.«147104_g16140487098643_cont_week2b_485_7_alg».proof.Proof.KI.Base

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's two stores leave in the output's staging memref, as pieces (last first), when the branch is NOT
    taken, with the proof that on whole memrefs — the five inputs' at their contents `x·`, the scratch at `xs`, the
    output's at anything — the body runs to the continuation holding the inputs and the scratch as they were and
    the output's buffer with the pieces written. The pieces are the witness the run finds. -/
noncomputable def kernelRunB (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S400x16 .f32) (harg6 : arg6.IsWhole) (arg7 : Memref sig .tc .vmem S10000x16 .f32) (harg7 : arg7.IsWhole) (hc : ¬cond0 i)
    (x0 : Vec F S200x10000 .f32) (x1 : Vec F S200x10000 .f32) (x2 : Vec F S10000x128 .f32) (x3 : Vec F S128x16 .f32) (x4 : Vec F S1x16 .f32) (xs : Vec F S10000x16 .f32) :
    { L5 : List (View.Piece (Elt F) S400x16 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xs) -∗ K ⟨⟩))
          ⊢ wp frame (wpE (defs₀ (F := F)) Variants.none c none) E (cc0__fused_kernel i arg1 harg1 arg2 harg2 arg3 harg3 arg4 harg4 arg5 harg5 arg6 harg6 arg7 harg7) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg1.eq_unread hf0; obtain rfl := harg2.eq_unread hf1; obtain rfl := harg3.eq_unread hf2
    obtain rfl := harg4.eq_unread hf3; obtain rfl := harg5.eq_unread hf4; obtain rfl := harg7.eq_unread hfs
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    iexists _; isplitr; · ipureintro; exact harg7.read_unread _
    iexact HS

end Cert.KernelIdeal.Frm

end
-- ==== Proof.KI.Outs.lean ====
/-
  What the body leaves, point by point, and the proof data of the one pipeline.
  The scratch is stored once, whole, at the first point: afterwards it holds the support matrix `supp`, a function
  of the whole feature and weight matrices, and no later point changes it. The output's buffer after point t is the
  two stored halves read back: computed from the point's two adjacency blocks, the bias row and the support matrix.
  The adjacency matrix reaches the kernel through two windows: the pipeline holds it at the left and at the right
  half of the full share, one half per window.
-/
import proofs.«147104_g16140487098643_cont_week2b_485_7_alg».proof.Proof.KI.RunA
import proofs.«147104_g16140487098643_cont_week2b_485_7_alg».proof.Proof.KI.RunB

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pieces cover their buffers -/

/-- At the first point the two stored halves tile the output's buffer. -/
theorem coverA (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S400x16 .f32) (harg6 : arg6.IsWhole) (arg7 : Memref sig .tc .vmem S10000x16 .f32) (harg7 : arg7.IsWhole) (hc : cond0 i) (x0 : Vec F S200x10000 .f32) (x1 : Vec F S200x10000 .f32) (x2 : Vec F S10000x128 .f32) (x3 : Vec F S128x16 .f32) (x4 : Vec F S1x16 .f32) (y : S400x16.Idx) :
    ∃ pc ∈ (kernelRunA c i arg1 harg1 arg2 harg2 arg3 harg3 arg4 harg4 arg5 harg5 arg6 harg6 arg7 harg7 hc x0 x1 x2 x3 x4).1, y ∈ pc.1.set :=
  View.cover_of_tiledL (kernelRunA c i arg1 harg1 arg2 harg2 arg3 harg3 arg4 harg4 arg5 harg5 arg6 harg6 arg7 harg7 hc x0 x1 x2 x3 x4).1 S200x16.size (by sl_kernel_rfl) y

/-- The one store into the scratch covers it. -/
theorem scoverA (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S400x16 .f32) (harg6 : arg6.IsWhole) (arg7 : Memref sig .tc .vmem S10000x16 .f32) (harg7 : arg7.IsWhole) (hc : cond0 i) (x0 : Vec F S200x10000 .f32) (x1 : Vec F S200x10000 .f32) (x2 : Vec F S10000x128 .f32) (x3 : Vec F S128x16 .f32) (x4 : Vec F S1x16 .f32) (y : S10000x16.Idx) :
    ∃ pc ∈ (kernelRunA c i arg1 harg1 arg2 harg2 arg3 harg3 arg4 harg4 arg5 harg5 arg6 harg6 arg7 harg7 hc x0 x1 x2 x3 x4).2.1, y ∈ pc.1.set :=
  View.cover_of_tiledL (kernelRunA c i arg1 harg1 arg2 harg2 arg3 harg3 arg4 harg4 arg5 harg5 arg6 harg6 arg7 harg7 hc x0 x1 x2 x3 x4).2.1 S10000x16.size (by sl_kernel_rfl) y

/-- At a later point the two stored halves tile the output's buffer. -/
theorem coverB (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S400x16 .f32) (harg6 : arg6.IsWhole) (arg7 : Memref sig .tc .vmem S10000x16 .f32) (harg7 : arg7.IsWhole) (hc : ¬cond0 i) (x0 : Vec F S200x10000 .f32) (x1 : Vec F S200x10000 .f32) (x2 : Vec F S10000x128 .f32) (x3 : Vec F S128x16 .f32) (x4 : Vec F S1x16 .f32) (xs : Vec F S10000x16 .f32) (y : S400x16.Idx) :
    ∃ pc ∈ (kernelRunB c i arg1 harg1 arg2 harg2 arg3 harg3 arg4 harg4 arg5 harg5 arg6 harg6 arg7 harg7 hc x0 x1 x2 x3 x4 xs).1, y ∈ pc.1.set :=
  View.cover_of_tiledL (kernelRunB c i arg1 harg1 arg2 harg2 arg3 harg3 arg4 harg4 arg5 harg5 arg6 harg6 arg7 harg7 hc x0 x1 x2 x3 x4 xs).1 S200x16.size (by sl_kernel_rfl) y

/-- What the first point leaves in the output's buffer: its pieces read back. -/
def outA (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S400x16 .f32) (harg6 : arg6.IsWhole) (arg7 : Memref sig .tc .vmem S10000x16 .f32) (harg7 : arg7.IsWhole) (hc : cond0 i) (x0 : Vec F S200x10000 .f32) (x1 : Vec F S200x10000 .f32) (x2 : Vec F S10000x128 .f32) (x3 : Vec F S128x16 .f32) (x4 : Vec F S1x16 .f32) : Vec F S400x16 .f32 :=
  VO.read (Elt F) (VO.writes (Elt F) VO.junk (kernelRunA c i arg1 harg1 arg2 harg2 arg3 harg3 arg4 harg4 arg5 harg5 arg6 harg6 arg7 harg7 hc x0 x1 x2 x3 x4).1)

/-- What the first point leaves in the scratch: its piece read back. -/
def soutA (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S400x16 .f32) (harg6 : arg6.IsWhole) (arg7 : Memref sig .tc .vmem S10000x16 .f32) (harg7 : arg7.IsWhole) (hc : cond0 i) (x0 : Vec F S200x10000 .f32) (x1 : Vec F S200x10000 .f32) (x2 : Vec F S10000x128 .f32) (x3 : Vec F S128x16 .f32) (x4 : Vec F S1x16 .f32) : Vec F S10000x16 .f32 :=
  VS.read (Elt F) (VS.writes (Elt F) VS.junk (kernelRunA c i arg1 harg1 arg2 harg2 arg3 harg3 arg4 harg4 arg5 harg5 arg6 harg6 arg7 harg7 hc x0 x1 x2 x3 x4).2.1)

/-- What a later point leaves in the output's buffer: its pieces read back. -/
def outB (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S400x16 .f32) (harg6 : arg6.IsWhole) (arg7 : Memref sig .tc .vmem S10000x16 .f32) (harg7 : arg7.IsWhole) (hc : ¬cond0 i) (x0 : Vec F S200x10000 .f32) (x1 : Vec F S200x10000 .f32) (x2 : Vec F S10000x128 .f32) (x3 : Vec F S128x16 .f32) (x4 : Vec F S1x16 .f32) (xs : Vec F S10000x16 .f32) : Vec F S400x16 .f32 :=
  VO.read (Elt F) (VO.writes (Elt F) VO.junk (kernelRunB c i arg1 harg1 arg2 harg2 arg3 harg3 arg4 harg4 arg5 harg5 arg6 harg6 arg7 harg7 hc x0 x1 x2 x3 x4 xs).1)

/-! ## Point by point -/

/-- The first grid point. -/
abbrev t0 : Fin cfg0.N := ⟨0, by have : cfg0.N = 25 := N_0; omega⟩

theorem hc_t0 : cond0 (grid0.coords t0) := (hcond0 t0).mpr rfl

/-- THE SUPPORT MATRIX as the scratch holds it from the first point on. -/
def supp (c : Dev nD) : Vec F S10000x16 .f32 :=
  soutA c (grid0.coords t0) (ms0 t0) (hs0 t0) (ms1 t0) (hs1 t0) (ms2 t0) (hs2 t0) (ms3 t0) (hs3 t0) (ms4 t0) (hs4 t0) (ms5 t0) (hs5 t0) scM (Memref.isWhole_whole _) hc_t0 (iblk m c 0 t0) (iblk m c 1 t0) (iblk m c 2 t0) (iblk m c 3 t0) (iblk m c 4 t0)

/-- What the output's buffer holds after the body at point `t`. -/
def outAt (c : Dev nD) (t : Fin cfg0.N) : Vec F S400x16 .f32 :=
  if h : t.val = 0 then
    outA c (grid0.coords t) (ms0 t) (hs0 t) (ms1 t) (hs1 t) (ms2 t) (hs2 t) (ms3 t) (hs3 t) (ms4 t) (hs4 t) (ms5 t) (hs5 t) scM (Memref.isWhole_whole _) ((hcond0 t).mpr h) (iblk m c 0 t) (iblk m c 1 t) (iblk m c 2 t) (iblk m c 3 t) (iblk m c 4 t)
  else
    outB c (grid0.coords t) (ms0 t) (hs0 t) (ms1 t) (hs1 t) (ms2 t) (hs2 t) (ms3 t) (hs3 t) (ms4 t) (hs4 t) (ms5 t) (hs5 t) scM (Memref.isWhole_whole _) (fun hc => h ((hcond0 t).mp hc)) (iblk m c 0 t) (iblk m c 1 t) (iblk m c 2 t) (iblk m c 3 t) (iblk m c 4 t) (supp m c)

theorem outAt_zero (c : Dev nD) (t : Fin cfg0.N) (h : t.val = 0) :
    outAt m c t = outA c (grid0.coords t) (ms0 t) (hs0 t) (ms1 t) (hs1 t) (ms2 t) (hs2 t) (ms3 t) (hs3 t) (ms4 t) (hs4 t) (ms5 t) (hs5 t) scM (Memref.isWhole_whole _) ((hcond0 t).mpr h) (iblk m c 0 t) (iblk m c 1 t) (iblk m c 2 t) (iblk m c 3 t) (iblk m c 4 t) := dif_pos h

theorem outAt_pos (c : Dev nD) (t : Fin cfg0.N) (h : ¬t.val = 0) :
    outAt m c t = outB c (grid0.coords t) (ms0 t) (hs0 t) (ms1 t) (hs1 t) (ms2 t) (hs2 t) (ms3 t) (hs3 t) (ms4 t) (hs4 t) (ms5 t) (hs5 t) scM (Memref.isWhole_whole _) (fun hc => h ((hcond0 t).mp hc)) (iblk m c 0 t) (iblk m c 1 t) (iblk m c 2 t) (iblk m c 3 t) (iblk m c 4 t) (supp m c) := dif_neg h

/-- The region invariant before position `n`: before the first point the scratch at anything; afterwards at the
    support matrix. -/
def PhiS (c : Dev nD) : (n : ℕ) → sProp 𝕄
  | 0 => iprop(∃ d, owns (c : Thread nD τ) scM fullShare d)
  | _ + 1 => owns (c : Thread nD τ) scM fullShare (supp m c)

theorem PhiS_zero (c : Dev nD) (n : ℕ) (hz : n = 0) : PhiS m c n = iprop(∃ d, owns (c : Thread nD τ) scM fullShare d) := by
  subst hz; rfl

theorem PhiS_pos (c : Dev nD) (n : ℕ) (hz : n ≠ 0) : PhiS m c n = owns (c : Thread nD τ) scM fullShare (supp m c) := by
  cases n with
  | zero => exact absurd rfl hz
  | succ n => rfl

/-! ## The pipeline's proof data -/

/-- The proof data of the one pipeline on core `c`: the arrays as the region finds them; after the body each input's
    buffer at its block and the output's at `outAt`; the invariant `PhiS`; nothing owed; the adjacency matrix's two
    windows at the two halves of the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := PhiS m c t.val
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; simp only [Fin.coe_castSucc]

theorem Phi_succ (c : Dev nD) (t : Fin cfg0.N) : (dats m 0 c).Φ t.succ = owns (c : Thread nD τ) scM fullShare (supp m c) := by
  dsimp only [dats]; rfl

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outAt m c t := by dsimp only [dats]

/-- Each input's current staging buffer holds its block at every point, fetched there or not: the body leaves it in
    place, and an unfetched window's block index has not moved. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

end Cert.KernelIdeal.Frm

end
-- ==== Proof.KI.Blk.lean ====
/-
  What the output's buffer holds after a point, as ONE function of the arithmetic: the lower 200 rows are the first
  half's value, the upper 200 the second's, each computed from its adjacency block, the bias row, the whole support
  matrix and the support matrix's own rows at the half's offset. At the first point the support matrix the halves read
  is the one the point has just stored; at a later point it is what the scratch arrived with.
-/
import proofs.«147104_g16140487098643_cont_week2b_485_7_alg».proof.Proof.KI.Outs
import Idealize.ShloMosaic.Lib.Pipeline.Value
import Idealize.ShloMosaic.Lib.ValueIdx

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

set_option maxHeartbeats 400000

theorem zeros2 : (![0, 0] : Fin 2 → Nat) = fun _ => 0 := by
  funext a; match a with | ⟨0, _⟩ => rfl | ⟨1, _⟩ => rfl

/-- The 200 rows of the support matrix the first half adds: the rows of the point's first adjacency block. -/
abbrev rowsLo (i : grid0.Coords) : Rect S10000x16 := Rect.unit (s := S10000x16) (k0_off1 i) S200x16.size (k0_off1_inb i)
/-- The 200 rows the second half adds. -/
abbrev rowsHi (i : grid0.Coords) : Rect S10000x16 := Rect.unit (s := S10000x16) (k0_off2 i) S200x16.size (k0_off2_inb i)

/-- Two stacked 200-row pieces of a 400-row buffer: `lo` below, `hi` above. -/
def stack2 (lo hi : Vec F S200x16 .f32) : Vec F S400x16 .f32 :=
  View.canon [(⟨Rect.unit (s := S400x16) ![200, 0] S200x16.size inb_S400x16_S200x16_200_0, hi⟩ : View.Piece (Elt F) S400x16 .f32),
    (⟨Rect.unit (s := S400x16) ![0, 0] S200x16.size inb_S400x16_S200x16_0_0, lo⟩ : View.Piece (Elt F) S400x16 .f32)]

/-- The output's buffer after a point, from the point's two adjacency blocks `x0`, `x1`, the bias row `x4` and the
    support matrix `xs` the scratch holds when the halves are computed. -/
def blkOut (i : grid0.Coords) (x0 x1 : Vec F S200x10000 .f32) (x4 : Vec F S1x16 .f32) (xs : Vec F S10000x16 .f32) : Vec F S400x16 .f32 :=
  stack2 (k0_pay3 x4 x0 xs (View.ld xs (rowsLo i))) (k0_pay4 x4 x1 xs (View.ld xs (rowsHi i)))

/-- A later point's buffer is `blkOut` at the scratch's contents. -/
theorem outB_eq (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S400x16 .f32) (harg6 : arg6.IsWhole) (arg7 : Memref sig .tc .vmem S10000x16 .f32) (harg7 : arg7.IsWhole) (hc : ¬cond0 i) (x0 : Vec F S200x10000 .f32) (x1 : Vec F S200x10000 .f32) (x2 : Vec F S10000x128 .f32) (x3 : Vec F S128x16 .f32) (x4 : Vec F S1x16 .f32) (xs : Vec F S10000x16 .f32) :
    outB c i arg1 harg1 arg2 harg2 arg3 harg3 arg4 harg4 arg5 harg5 arg6 harg6 arg7 harg7 hc x0 x1 x2 x3 x4 xs = blkOut i x0 x1 x4 xs := by
  unfold outB
  rw [View.read_writes_junk_eq_canon]
  unfold kernelRunB
  dsimp only
  sl_unfold_words
  simp only [View.readAt_eq_ld, Memref.IsWhole.read_unread, View.ld_unit_zero (S := S1x16) zeros2,
    View.ld_unit_zero (S := S200x10000) zeros2, View.ld_unit_zero (S := S10000x16) zeros2]
  rfl

/-- The first point leaves the support matrix of its feature and weight blocks in the scratch. -/
theorem soutA_eq (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S400x16 .f32) (harg6 : arg6.IsWhole) (arg7 : Memref sig .tc .vmem S10000x16 .f32) (harg7 : arg7.IsWhole) (hc : cond0 i) (x0 : Vec F S200x10000 .f32) (x1 : Vec F S200x10000 .f32) (x2 : Vec F S10000x128 .f32) (x3 : Vec F S128x16 .f32) (x4 : Vec F S1x16 .f32) :
    soutA c i arg1 harg1 arg2 harg2 arg3 harg3 arg4 harg4 arg5 harg5 arg6 harg6 arg7 harg7 hc x0 x1 x2 x3 x4 = k0_pay1 x2 x3 := by
  unfold soutA
  rw [View.read_writes_junk_eq_canon]
  unfold kernelRunA
  dsimp only
  sl_unfold_words
  simp only [View.readAt_eq_ld, Memref.IsWhole.read_unread, View.ld_unit_zero (S := S10000x128) zeros2,
    View.ld_unit_zero (S := S128x16) zeros2]
  exact View.canon_unit_zero zeros2 _ _

/-! ## The stacked buffer as a function of the row -/

/-- The stacked buffer as a function of the row: below row 200 the lower piece, from row 200 on the upper one. -/
def stackG (lo hi : Vec F S200x16 .f32) : Vec F S400x16 .f32 := fun j =>
  if h : (j 0).val < 200 then lo (ix2 (⟨(j 0).val, h⟩ : Fin 200) (⟨(j 1).val, idx2_lt1 j⟩ : Fin 16))
  else hi (ix2 (⟨(j 0).val - 200, by have := idx2_lt0 j; omega⟩ : Fin 200) (⟨(j 1).val, idx2_lt1 j⟩ : Fin 16))

/-- Each of the two pieces is its block of `stackG`: a piece's element sits at the piece's offset plus its own coordinate. -/
theorem stack2_eq (lo hi : Vec F S200x16 .f32) : stack2 lo hi = stackG lo hi := by
  funext y
  unfold stack2
  refine View.canon_apply_of_pieces (stackG lo hi) _ ?_ y
    (View.cover_of_tiledL (s := S400x16) _ S200x16.size (by sl_kernel_rfl) y)
  intro p hp x
  simp only [List.mem_cons, List.mem_nil_iff, or_false] at hp
  rcases hp with rfl | rfl
  · -- the upper piece: rows 200 + x
    have h0 : ((Rect.unit (s := S400x16) ![200, 0] S200x16.size inb_S400x16_S200x16_200_0).emb x 0 : Nat) = 200 + 1 * (x 0).val := rfl
    have h1 : ((Rect.unit (s := S400x16) ![200, 0] S200x16.size inb_S400x16_S200x16_200_0).emb x 1 : Nat) = 0 + 1 * (x 1).val := rfl
    unfold stackG
    rw [dif_neg (by rw [h0]; omega)]
    refine congrArg hi (funext fun a => Fin.ext ?_)
    match a with
    | ⟨0, _⟩ => show (x 0).val = ((Rect.unit (s := S400x16) ![200, 0] S200x16.size inb_S400x16_S200x16_200_0).emb x 0 : Nat) - 200; rw [h0]; omega
    | ⟨1, _⟩ => show (x 1).val = ((Rect.unit (s := S400x16) ![200, 0] S200x16.size inb_S400x16_S200x16_200_0).emb x 1 : Nat); rw [h1]; omega
  · -- the lower piece: rows x
    have h0 : ((Rect.unit (s := S400x16) ![0, 0] S200x16.size inb_S400x16_S200x16_0_0).emb x 0 : Nat) = 0 + 1 * (x 0).val := rfl
    have h1 : ((Rect.unit (s := S400x16) ![0, 0] S200x16.size inb_S400x16_S200x16_0_0).emb x 1 : Nat) = 0 + 1 * (x 1).val := rfl
    have hx : (x 0).val < 200 := (x 0).isLt
    unfold stackG
    rw [dif_pos (by rw [h0]; omega)]
    refine congrArg lo (funext fun a => Fin.ext ?_)
    match a with
    | ⟨0, _⟩ => show (x 0).val = ((Rect.unit (s := S400x16) ![0, 0] S200x16.size inb_S400x16_S200x16_0_0).emb x 0 : Nat); rw [h0]; omega
    | ⟨1, _⟩ => show (x 1).val = ((Rect.unit (s := S400x16) ![0, 0] S200x16.size inb_S400x16_S200x16_0_0).emb x 1 : Nat); rw [h1]; omega

end Cert.KernelIdeal.Frm

end
-- ==== Proof.KI.BlkA.lean ====
/-
  At the first point the halves read the support matrix the point has just stored: a load of the whole scratch after
  its one whole store reads the stored value, and so does a load of any of its rows.
-/
import proofs.«147104_g16140487098643_cont_week2b_485_7_alg».proof.Proof.KI.Blk

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx
set_option maxHeartbeats 400000

/-- The first point's buffer is `blkOut` at the support matrix it has just stored. -/
theorem outA_eq (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S400x16 .f32) (harg6 : arg6.IsWhole) (arg7 : Memref sig .tc .vmem S10000x16 .f32) (harg7 : arg7.IsWhole) (hc : cond0 i) (x0 : Vec F S200x10000 .f32) (x1 : Vec F S200x10000 .f32) (x2 : Vec F S10000x128 .f32) (x3 : Vec F S128x16 .f32) (x4 : Vec F S1x16 .f32) :
    outA c i arg1 harg1 arg2 harg2 arg3 harg3 arg4 harg4 arg5 harg5 arg6 harg6 arg7 harg7 hc x0 x1 x2 x3 x4 = blkOut i x0 x1 x4 (k0_pay1 x2 x3) := by
  unfold outA
  rw [View.read_writes_junk_eq_canon]
  unfold kernelRunA
  dsimp only
  sl_unfold_words
  simp only [View.readAt_eq_ld, Memref.IsWhole.read_unread, View.ld_unit_zero (S := S10000x128) zeros2,
    View.ld_unit_zero (S := S128x16) zeros2, View.ld_unit_zero (S := S1x16) zeros2, View.ld_unit_zero (S := S200x10000) zeros2]
  rw [View.readCov_unit_zero (S := S10000x16) arg7.view zeros2, View.read_writes_junk_eq_canon,
    View.canon_unit_zero (S := S10000x16) zeros2]
  rfl

end Cert.KernelIdeal.Frm

end
-- ==== Proof.Spec.lean ====
/-
  The graph-convolution layer as functions on the extended reals, index by index, in the two arrangements the two
  programs compute it in. With S = relu(X · W) the support matrix:
    the kernel adds the node's own support row AFTER the product:  out[p, q] = (Σ_k A[p, k] · S[k, q] + S[p, q]) + b[q];
    the reference adds the identity to the adjacency matrix BEFORE: out[p, q] = Σ_k (A[p, k] + [p = k]) · S[k, q] + b[q].
  The two agree when every entry of X, A and W is a real number: then S is real, and the product distributes over
  the sum A[p, k] + [p = k] (on the extended reals it does not in general: 0 · (+inf) against -inf + inf).
-/
import Idealize.ShloMosaic.PureOps.Ideal.Laws
import Idealize.ShloMosaic.Lib.ValueIdx

noncomputable section

open scoped BigOperators

namespace GraphConv

open Idealize.ShloMosaic Idealize.ShloMosaic.ValueIdx

/-- The shapes of the feature matrix, the adjacency matrix, the weights, the bias and the result. -/
abbrev SX : Shape := ⟨2, ![10000, 128]⟩
abbrev SA : Shape := ⟨2, ![10000, 10000]⟩
abbrev SW : Shape := ⟨2, ![128, 16]⟩
abbrev SB : Shape := ⟨1, ![16]⟩
abbrev SO : Shape := ⟨2, ![10000, 16]⟩

/-- The support matrix relu(X · W) at row `k`, column `q`. -/
def support (X : SX.Idx → EReal) (W : SW.Idx → EReal) (k : Fin 10000) (q : Fin 16) : EReal :=
  max (∑ l : Fin 128, X (ix2 k l) * W (ix2 l q)) 0

/-- The kernel's arrangement: the product with the adjacency matrix, then the node's own support row, then the bias. -/
def outK (X : SX.Idx → EReal) (A : SA.Idx → EReal) (W : SW.Idx → EReal) (b : SB.Idx → EReal) (p : Fin 10000) (q : Fin 16) : EReal :=
  ((∑ k : Fin 10000, A (ix2 p k) * support X W k q) + support X W p q) + b (ix1 q)

/-- The reference's arrangement: the identity added to the adjacency matrix first, then the product, then the bias. -/
def outR (X : SX.Idx → EReal) (A : SA.Idx → EReal) (W : SW.Idx → EReal) (b : SB.Idx → EReal) (p : Fin 10000) (q : Fin 16) : EReal :=
  (∑ k : Fin 10000, (A (ix2 p k) + (((if p = k then 1 else 0 : ℝ)) : EReal)) * support X W k q) + b (ix1 q)

end GraphConv

end
-- ==== Proof.KI.Pay.lean ====
/-
  The kernel's payloads read at an index. Each payload is a term of elementwise operations, layout operations that
  keep the shape, one row broadcast, and one matrix product into the zero splat; read at (row, column) it is the
  graph-convolution layer's arithmetic on the extended reals:
    the support payload is  max (Σ_l X[k, l] · W[l, q]) 0;
    the two output payloads are  ((Σ_k a[y, k] · s[k, q]) + r[y, q]) + b[0, q].
-/
import proofs.«147104_g16140487098643_cont_week2b_485_7_alg».proof.Proof.Gen.KernelIdeal.Skeleton
import proofs.«147104_g16140487098643_cont_week2b_485_7_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Frm

open Cert.KernelIdeal Cert.KernelIdeal.Gen Idealize.ShloMosaic Idealize.ShloMosaic.ValueIdx

/-! ## The operand indices of the two products, axis by axis

Both products contract the left operand's columns with the right operand's rows: at the result's index (p, q) and the
contraction index l the left operand is read at (p, l) and the right at (l, q). -/

theorem lhs_xw_0 (i : S10000x16.Idx) (c : dot_S10000x128_S128x16_S10000x16_1_0_0_1_n_n.contr.Idx) :
    (dot_S10000x128_S128x16_S10000x16_1_0_0_1_n_n.lhsIdx i c 0).val = (i 0).val := by
  unfold DotDims.lhsIdx
  rw [dif_neg (show ¬(0 : Fin S10000x128.rank) ∈ dot_S10000x128_S128x16_S10000x16_1_0_0_1_n_n.lhsBatch by decide), dif_pos (show (0 : Fin S10000x128.rank) ∈ dot_S10000x128_S128x16_S10000x16_1_0_0_1_n_n.lhsNonContracting by decide)]
  rfl
theorem lhs_xw_1 (i : S10000x16.Idx) (c : dot_S10000x128_S128x16_S10000x16_1_0_0_1_n_n.contr.Idx) :
    (dot_S10000x128_S128x16_S10000x16_1_0_0_1_n_n.lhsIdx i c 1).val = (c ⟨0, by decide⟩).val :=
  dot_S10000x128_S128x16_S10000x16_1_0_0_1_n_n.lhsIdx_val_of_single rfl i c
theorem rhs_xw_0 (i : S10000x16.Idx) (c : dot_S10000x128_S128x16_S10000x16_1_0_0_1_n_n.contr.Idx) :
    (dot_S10000x128_S128x16_S10000x16_1_0_0_1_n_n.rhsIdx i c 0).val = (c ⟨0, by decide⟩).val :=
  dot_S10000x128_S128x16_S10000x16_1_0_0_1_n_n.rhsIdx_val_of_single rfl i c
theorem rhs_xw_1 (i : S10000x16.Idx) (c : dot_S10000x128_S128x16_S10000x16_1_0_0_1_n_n.contr.Idx) :
    (dot_S10000x128_S128x16_S10000x16_1_0_0_1_n_n.rhsIdx i c 1).val = (i 1).val := by
  unfold DotDims.rhsIdx
  rw [dif_neg (show ¬(1 : Fin S128x16.rank) ∈ dot_S10000x128_S128x16_S10000x16_1_0_0_1_n_n.rhsBatch by decide), dif_pos (show (1 : Fin S128x16.rank) ∈ dot_S10000x128_S128x16_S10000x16_1_0_0_1_n_n.rhsNonContracting by decide)]
  rfl

theorem lhs_as_0 (i : S200x16.Idx) (c : dot_S200x10000_S10000x16_S200x16_1_0_0_1_n_n.contr.Idx) :
    (dot_S200x10000_S10000x16_S200x16_1_0_0_1_n_n.lhsIdx i c 0).val = (i 0).val := by
  unfold DotDims.lhsIdx
  rw [dif_neg (show ¬(0 : Fin S200x10000.rank) ∈ dot_S200x10000_S10000x16_S200x16_1_0_0_1_n_n.lhsBatch by decide), dif_pos (show (0 : Fin S200x10000.rank) ∈ dot_S200x10000_S10000x16_S200x16_1_0_0_1_n_n.lhsNonContracting by decide)]
  rfl
theorem lhs_as_1 (i : S200x16.Idx) (c : dot_S200x10000_S10000x16_S200x16_1_0_0_1_n_n.contr.Idx) :
    (dot_S200x10000_S10000x16_S200x16_1_0_0_1_n_n.lhsIdx i c 1).val = (c ⟨0, by decide⟩).val :=
  dot_S200x10000_S10000x16_S200x16_1_0_0_1_n_n.lhsIdx_val_of_single rfl i c
theorem rhs_as_0 (i : S200x16.Idx) (c : dot_S200x10000_S10000x16_S200x16_1_0_0_1_n_n.contr.Idx) :
    (dot_S200x10000_S10000x16_S200x16_1_0_0_1_n_n.rhsIdx i c 0).val = (c ⟨0, by decide⟩).val :=
  dot_S200x10000_S10000x16_S200x16_1_0_0_1_n_n.rhsIdx_val_of_single rfl i c
theorem rhs_as_1 (i : S200x16.Idx) (c : dot_S200x10000_S10000x16_S200x16_1_0_0_1_n_n.contr.Idx) :
    (dot_S200x10000_S10000x16_S200x16_1_0_0_1_n_n.rhsIdx i c 1).val = (i 1).val := by
  unfold DotDims.rhsIdx
  rw [dif_neg (show ¬(1 : Fin S10000x16.rank) ∈ dot_S200x10000_S10000x16_S200x16_1_0_0_1_n_n.rhsBatch by decide), dif_pos (show (1 : Fin S10000x16.rank) ∈ dot_S200x10000_S10000x16_S200x16_1_0_0_1_n_n.rhsNonContracting by decide)]
  rfl

/-! ## The two products into the zero splat, at an index -/

/-- The features times the weights, accumulated into zero: the sum over the 128 feature columns. -/
theorem matmul_xw_apply (x : FVec Ideal S10000x128 .f32) (y : FVec Ideal S128x16 .f32) (p : Fin 10000) (q : Fin 16) :
    matmul (F := Ideal) dot_S10000x128_S128x16_S10000x16_1_0_0_1_n_n none x y (constant (F := Ideal) S10000x16 .f32 0x00000000#32) (ix2 p q)
      = ∑ l : Fin 128, x (ix2 p l) * y (ix2 l q) := by
  simp only [matmul]
  rw [Ideal.matmul_constant_zero_apply, ← Equiv.sum_comp (contrEquiv1 dot_S10000x128_S128x16_S10000x16_1_0_0_1_n_n 128 rfl rfl).symm]
  refine Finset.sum_congr rfl fun l _ => ?_
  have hl := contrEquiv1_symm_val dot_S10000x128_S128x16_S10000x16_1_0_0_1_n_n 128 rfl rfl l
  have el : dot_S10000x128_S128x16_S10000x16_1_0_0_1_n_n.lhsIdx (ix2 p q) ((contrEquiv1 dot_S10000x128_S128x16_S10000x16_1_0_0_1_n_n 128 rfl rfl).symm l) = ix2 p l := funext fun a => Fin.ext (by
    match a with
    | ⟨0, _⟩ => exact lhs_xw_0 _ _
    | ⟨1, _⟩ => exact (lhs_xw_1 _ _).trans hl)
  have er : dot_S10000x128_S128x16_S10000x16_1_0_0_1_n_n.rhsIdx (ix2 p q) ((contrEquiv1 dot_S10000x128_S128x16_S10000x16_1_0_0_1_n_n 128 rfl rfl).symm l) = ix2 l q := funext fun a => Fin.ext (by
    match a with
    | ⟨0, _⟩ => exact (rhs_xw_0 _ _).trans hl
    | ⟨1, _⟩ => exact rhs_xw_1 _ _)
  rw [el, er]

/-- A block of 200 adjacency rows times the support matrix, accumulated into zero: the sum over the 10000 nodes. -/
theorem matmul_as_apply (x : FVec Ideal S200x10000 .f32) (y : FVec Ideal S10000x16 .f32) (p : Fin 200) (q : Fin 16) :
    matmul (F := Ideal) dot_S200x10000_S10000x16_S200x16_1_0_0_1_n_n none x y (constant (F := Ideal) S200x16 .f32 0x00000000#32) (ix2 p q)
      = ∑ l : Fin 10000, x (ix2 p l) * y (ix2 l q) := by
  simp only [matmul]
  rw [Ideal.matmul_constant_zero_apply, ← Equiv.sum_comp (contrEquiv1 dot_S200x10000_S10000x16_S200x16_1_0_0_1_n_n 10000 rfl rfl).symm]
  refine Finset.sum_congr rfl fun l _ => ?_
  have hl := contrEquiv1_symm_val dot_S200x10000_S10000x16_S200x16_1_0_0_1_n_n 10000 rfl rfl l
  have el : dot_S200x10000_S10000x16_S200x16_1_0_0_1_n_n.lhsIdx (ix2 p q) ((contrEquiv1 dot_S200x10000_S10000x16_S200x16_1_0_0_1_n_n 10000 rfl rfl).symm l) = ix2 p l := funext fun a => Fin.ext (by
    match a with
    | ⟨0, _⟩ => exact lhs_as_0 _ _
    | ⟨1, _⟩ => exact (lhs_as_1 _ _).trans hl)
  have er : dot_S200x10000_S10000x16_S200x16_1_0_0_1_n_n.rhsIdx (ix2 p q) ((contrEquiv1 dot_S200x10000_S10000x16_S200x16_1_0_0_1_n_n 10000 rfl rfl).symm l) = ix2 l q := funext fun a => Fin.ext (by
    match a with
    | ⟨0, _⟩ => exact (rhs_as_0 _ _).trans hl
    | ⟨1, _⟩ => exact rhs_as_1 _ _)
  rw [el, er]

/-! ## The payloads -/

/-- The support payload at (k, q): the product X · W there, clamped below at zero. -/
theorem pay1_apply (X : Vec Ideal S10000x128 .f32) (W : Vec Ideal S128x16 .f32) (k : Fin 10000) (q : Fin 16) :
    k0_pay1 (F := Ideal) X W (ix2 k q) = GraphConv.support X W k q := by
  unfold k0_pay1 GraphConv.support
  rw [shapeCast_self]
  show max (matmul (F := Ideal) dot_S10000x128_S128x16_S10000x16_1_0_0_1_n_n none X W (constant (F := Ideal) S10000x16 .f32 0x00000000#32) (ix2 k q))
      (Ideal.ofBits .f32 0x00000000#32) = _
  rw [matmul_xw_apply, Ideal.ofBits_zero_f32]

/-- The bias payload is the bias row itself: the cast keeps the shape. -/
theorem pay2_eq (b4 : Vec Ideal S1x16 .f32) : k0_pay2 (F := Ideal) b4 = b4 := by
  unfold k0_pay2
  exact shapeCast_self _ _

/-- An output payload at (y, q): the adjacency block times the support matrix, plus the block's own support rows,
    plus the bias row (read at its one row, whatever y). -/
theorem pay3_apply (b4 : Vec Ideal S1x16 .f32) (a : Vec Ideal S200x10000 .f32) (s : Vec Ideal S10000x16 .f32) (r : Vec Ideal S200x16 .f32) (y : Fin 200) (q : Fin 16) :
    k0_pay3 (F := Ideal) b4 a s r (ix2 y q) = ((∑ k : Fin 10000, a (ix2 y k) * s (ix2 k q)) + r (ix2 y q)) + b4 (ix2 (0 : Fin 1) q) := by
  unfold k0_pay3
  rw [pay2_eq]
  show (matmul (F := Ideal) dot_S200x10000_S10000x16_S200x16_1_0_0_1_n_n none a s (constant (F := Ideal) S200x16 .f32 0x00000000#32) (ix2 y q) + r (ix2 y q))
      + broadcastTo S200x16 b4 broadcasts_S1x16_S200x16 (ix2 y q) = _
  rw [matmul_as_apply, broadcastTo_1b_ab_apply]

/-- The second output payload is the same term as the first. -/
theorem pay4_apply (b4 : Vec Ideal S1x16 .f32) (a : Vec Ideal S200x10000 .f32) (s : Vec Ideal S10000x16 .f32) (r : Vec Ideal S200x16 .f32) (y : Fin 200) (q : Fin 16) :
    k0_pay4 (F := Ideal) b4 a s r (ix2 y q) = ((∑ k : Fin 10000, a (ix2 y k) * s (ix2 k q)) + r (ix2 y q)) + b4 (ix2 (0 : Fin 1) q) :=
  pay3_apply b4 a s r y q

end Cert.KernelIdeal.Frm

end
-- ==== Proof.KI.Body.lean ====
/-
  The body obligation: at every grid point, handed the invariant and each window's current buffer at what it then
  holds, the body runs to the invariant at the next point and each buffer at what the proof data say it leaves.
  At the first point the scratch arrives at anything and leaves at the support matrix; at a later point it arrives
  at the support matrix and leaves untouched. The five inputs' buffers hold their blocks before and after.
-/
import proofs.«147104_g16140487098643_cont_week2b_485_7_alg».proof.Proof.KI.Outs

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`: the invariant, what the core owes, the six windows' buffers. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 400000 in
/-- The body at the first point: the scratch arrives at anything and leaves at the support matrix. -/
theorem sound_body_first (c : Dev nD) :
    bodyPre m c t0 ⊢ wp frame (wpE (defs₀ (F := F)) Variants.none c none) Set.univ (bodyAt0 t0) (fun _ => bodyPost m c t0) := by
  unfold bodyPre bodyPost bodyAt0
  simp only [before_0, before_1, before_2, before_3, before_4]
  rw [show (dats m 0 c).owesAt () t0.succ = (dats m 0 c).owesAt () t0.castSucc from rfl]
  rw [Phi_succ, Phi_castSucc]
  rw [show (dats m 0 c).leavesExact 0 t0 = owns (c : Thread nD τ) (ms0 t0) fullShare ((dats m 0 c).after 0 t0) from by
    unfold Dat.leavesExact; rw [liveAt 0 t0], after_0]
  rw [show (dats m 0 c).leavesExact 1 t0 = owns (c : Thread nD τ) (ms1 t0) fullShare ((dats m 0 c).after 1 t0) from by
    unfold Dat.leavesExact; rw [liveAt 1 t0], after_1]
  rw [show (dats m 0 c).leavesExact 2 t0 = owns (c : Thread nD τ) (ms2 t0) fullShare ((dats m 0 c).after 2 t0) from by
    unfold Dat.leavesExact; rw [liveAt 2 t0], after_2]
  rw [show (dats m 0 c).leavesExact 3 t0 = owns (c : Thread nD τ) (ms3 t0) fullShare ((dats m 0 c).after 3 t0) from by
    unfold Dat.leavesExact; rw [liveAt 3 t0], after_3]
  rw [show (dats m 0 c).leavesExact 4 t0 = owns (c : Thread nD τ) (ms4 t0) fullShare ((dats m 0 c).after 4 t0) from by
    unfold Dat.leavesExact; rw [liveAt 4 t0], after_4]
  rw [show (dats m 0 c).leavesExact 5 t0 = owns (c : Thread nD τ) (ms5 t0) fullShare ((dats m 0 c).after 5 t0) from by
    unfold Dat.leavesExact; rw [liveAt 5 t0], after_5]
  rw [PhiS_zero m c _ rfl, outAt_zero m c t0 rfl]
  unfold outA supp soutA
  iintro ⟨⟨%ds, HS⟩, Ho, ⟨%d0, H0⟩, ⟨%d1, H1⟩, ⟨%d2, H2⟩, ⟨%d3, H3⟩, ⟨%d4, H4⟩, ⟨%d5, H5⟩⟩
  iapply ((kernelRunA c (grid0.coords t0) (ms0 t0) (hs0 t0) (ms1 t0) (hs1 t0) (ms2 t0) (hs2 t0) (ms3 t0) (hs3 t0) (ms4 t0) (hs4 t0) (ms5 t0) (hs5 t0) scM (Memref.isWhole_whole _) hc_t0 (iblk m c 0 t0) (iblk m c 1 t0) (iblk m c 2 t0) (iblk m c 3 t0) (iblk m c 4 t0)).2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS]; · iexists _; iexact HS
  iintro ⟨H0, H1, H2, H3, H4, ⟨%e5, H5⟩, ⟨%es, HS⟩⟩
  isplitl [HS]
  · unfold owns; iexists _; isplitr
    swap; · iexact HS
    ipureintro
    exact View.read_writes_of_cover _ _ _ _ _ (fun y => scoverA c (grid0.coords t0) (ms0 t0) (hs0 t0) (ms1 t0) (hs1 t0) (ms2 t0) (hs2 t0) (ms3 t0) (hs3 t0) (ms4 t0) (hs4 t0) (ms5 t0) (hs5 t0) scM (Memref.isWhole_whole _) hc_t0 (iblk m c 0 t0) (iblk m c 1 t0) (iblk m c 2 t0) (iblk m c 3 t0) (iblk m c 4 t0) y)
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro
  exact View.read_writes_of_cover _ _ _ _ _ (fun y => coverA c (grid0.coords t0) (ms0 t0) (hs0 t0) (ms1 t0) (hs1 t0) (ms2 t0) (hs2 t0) (ms3 t0) (hs3 t0) (ms4 t0) (hs4 t0) (ms5 t0) (hs5 t0) scM (Memref.isWhole_whole _) hc_t0 (iblk m c 0 t0) (iblk m c 1 t0) (iblk m c 2 t0) (iblk m c 3 t0) (iblk m c 4 t0) y)

set_option maxHeartbeats 400000 in
/-- The body at a later point: the scratch arrives at the support matrix and is only read. -/
theorem sound_body_later (c : Dev nD) (t : Fin cfg0.N) (hz : ¬t.val = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [Phi_succ, Phi_castSucc]
  rw [show (dats m 0 c).leavesExact 0 t = owns (c : Thread nD τ) (ms0 t) fullShare ((dats m 0 c).after 0 t) from by
    unfold Dat.leavesExact; rw [liveAt 0 t], after_0]
  rw [show (dats m 0 c).leavesExact 1 t = owns (c : Thread nD τ) (ms1 t) fullShare ((dats m 0 c).after 1 t) from by
    unfold Dat.leavesExact; rw [liveAt 1 t], after_1]
  rw [show (dats m 0 c).leavesExact 2 t = owns (c : Thread nD τ) (ms2 t) fullShare ((dats m 0 c).after 2 t) from by
    unfold Dat.leavesExact; rw [liveAt 2 t], after_2]
  rw [show (dats m 0 c).leavesExact 3 t = owns (c : Thread nD τ) (ms3 t) fullShare ((dats m 0 c).after 3 t) from by
    unfold Dat.leavesExact; rw [liveAt 3 t], after_3]
  rw [show (dats m 0 c).leavesExact 4 t = owns (c : Thread nD τ) (ms4 t) fullShare ((dats m 0 c).after 4 t) from by
    unfold Dat.leavesExact; rw [liveAt 4 t], after_4]
  rw [show (dats m 0 c).leavesExact 5 t = owns (c : Thread nD τ) (ms5 t) fullShare ((dats m 0 c).after 5 t) from by
    unfold Dat.leavesExact; rw [liveAt 5 t], after_5]
  rw [PhiS_pos m c _ hz, outAt_pos m c t hz]
  unfold outB
  iintro ⟨HS, Ho, ⟨%d0, H0⟩, ⟨%d1, H1⟩, ⟨%d2, H2⟩, ⟨%d3, H3⟩, ⟨%d4, H4⟩, ⟨%d5, H5⟩⟩
  iapply ((kernelRunB c (grid0.coords t) (ms0 t) (hs0 t) (ms1 t) (hs1 t) (ms2 t) (hs2 t) (ms3 t) (hs3 t) (ms4 t) (hs4 t) (ms5 t) (hs5 t) scM (Memref.isWhole_whole _) (fun hc => hz ((hcond0 t).mp hc)) (iblk m c 0 t) (iblk m c 1 t) (iblk m c 2 t) (iblk m c 3 t) (iblk m c 4 t) (supp m c)).2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS]; · iexact HS
  iintro ⟨H0, H1, H2, H3, H4, ⟨%e5, H5⟩, HS⟩
  isplitl [HS]; · iexact HS
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro
  exact View.read_writes_of_cover _ _ _ _ _ (fun y => coverB c (grid0.coords t) (ms0 t) (hs0 t) (ms1 t) (hs1 t) (ms2 t) (hs2 t) (ms3 t) (hs3 t) (ms4 t) (hs4 t) (ms5 t) (hs5 t) scM (Memref.isWhole_whole _) (fun hc => hz ((hcond0 t).mp hc)) (iblk m c 0 t) (iblk m c 1 t) (iblk m c 2 t) (iblk m c 3 t) (iblk m c 4 t) (supp m c) y)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases hz : t.val = 0
  · obtain rfl : t = t0 := Fin.ext hz
    exact sound_body_first m c
  · exact sound_body_later m c t hz

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Frm

end
-- ==== Proof.KI.Launch.lean ====
/-
  The launch and the run. The adjacency matrix is handed to the region once and read through two windows: its
  buffer, whole at the full share when the region is entered, is split into a left and a right half share, one per
  window. The bias vector bypasses the region (the kernel reads its reshaped row) and is read back at the end. The
  run ends with every array of the pipeline at what the library computes from the proof data — the inputs as they
  were, the result array overwritten block by block by what each point left — and the bias vector untouched.
-/
import proofs.«147104_g16140487098643_cont_week2b_485_7_alg».proof.Proof.KI.Body

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 400000

/-! ## The arrays at the region's entry, window by window -/

/-- The five distinct buffers behind the six windows' arrays. -/
theorem arr_refs : Finset.univ.image (Pipeline.arrRef spec0)
    = ([main_arg1, main_arg0, main_arg2, main_v0, main_v1] : List (Ref sig .tc)).toFinset := by decide

/-- The pipeline's arrays at entry, spelled window by window: the adjacency matrix twice, at the two half shares. -/
theorem arrays_entry (c : Dev nD) :
    ((dats m 0 c).arrays (fun w => (dats m 0 c).arrAt w 0) : sProp 𝕄)
      = iprop((((c : Thread nD τ).loc main_arg1) ↦{fullShare.left} V m c main_arg1)
          ∗ (((c : Thread nD τ).loc main_arg1) ↦{fullShare.right} V m c main_arg1)
          ∗ (((c : Thread nD τ).loc main_arg0) ↦{fullShare} V m c main_arg0)
          ∗ (((c : Thread nD τ).loc main_arg2) ↦{fullShare} V m c main_arg2)
          ∗ (((c : Thread nD τ).loc main_v0) ↦{fullShare} V m c main_v0)
          ∗ (((c : Thread nD τ).loc main_v1) ↦{fullShare} V m c main_v1)) := by
  unfold Dat.arrays
  rw [bigSep_W0]
  rw [(arr_whole0 0).set_eq_univ, (arr_whole0 2).set_eq_univ, (arr_whole0 3).set_eq_univ,
    (arr_whole0 4).set_eq_univ, (arr_whole0 5).set_eq_univ]
  rfl

/-- What the launch hands the pipeline of the arrays' buffers makes the proof data's arrays at entry. -/
theorem hsplit (c : Dev nD) :
    (Pipeline.arrBufs (Ix := Unit) (Name := ℕ) (U := UR sig nD τ) (Lvl := ℕ) spec0 c (V m c) : sProp 𝕄)
      ⊢ (dats m 0 c).arrays (fun w => (dats m 0 c).arrAt w 0) := by
  rw [arrays_entry]
  unfold Pipeline.arrBufs
  rw [show (bigSep (Finset.univ.image (Pipeline.arrRef spec0)) fun b => (((c : Thread nD τ).loc b) ↦{fullShare} V m c b : sProp 𝕄))
      = iprop((((c : Thread nD τ).loc main_arg1) ↦{fullShare} V m c main_arg1)
          ∗ (((c : Thread nD τ).loc main_arg0) ↦{fullShare} V m c main_arg0)
          ∗ (((c : Thread nD τ).loc main_arg2) ↦{fullShare} V m c main_arg2)
          ∗ (((c : Thread nD τ).loc main_v0) ↦{fullShare} V m c main_v0)
          ∗ (((c : Thread nD τ).loc main_v1) ↦{fullShare} V m c main_v1))
    from bigSep_eq_bigSepL_of_eq _ arr_refs (by decide) _]
  iintro ⟨H1, H0, H2, H3, H4⟩
  ihave H1' := (pointsTo_share (PosShare.mem_left_op_right fullShare)).1 $$ H1
  icases H1' with ⟨H1l, H1r⟩
  isplitl [H1l]; · iexact H1l
  isplitl [H1r]; · iexact H1r
  isplitl [H0]; · iexact H0
  isplitl [H2]; · iexact H2
  isplitl [H3]; · iexact H3
  iexact H4

/-! ## The region's entry and exit -/

/-- What the launch hands the region of the scoped buffers is the invariant before the first point. -/
theorem hin (c : Dev nD) : iprop(emp ∗ Pipeline.scopedRest spec0 c) ⊢ (dats m 0 c).Φ 0 := by
  rw [show (dats m 0 c).Φ 0 = PhiS m c 0 from rfl, PhiS_zero m c 0 rfl, scopedRest_scratch]
  iintro ⟨-, H⟩; iexact H

/-- After the last point the invariant gives the scratch back, its contents forgotten. -/
theorem hout (c : Dev nD) : (dats m 0 c).Φ (Fin.last cfg0.N) ⊢ iprop(emp ∗ Pipeline.scopedRest spec0 c) := by
  rw [show (dats m 0 c).Φ (Fin.last cfg0.N) = PhiS m c (Fin.last cfg0.N).val from rfl,
    PhiS_pos m c _ (by rw [Fin.val_last]; have : cfg0.N = 25 := N_0; omega), scopedRest_scratch]
  iintro H; isplitr; · iempintro
  iexists _; iexact H

/-! ## The run -/

/-- The pipeline's launch element: every staging cell's owner at round 0 and a duty token per transfer. -/
def u₀ : UR sig nD τ := initOf (Pipeline.cells cfgs cellOf_inj) (Pipeline.launchToks cfgs cellOf_inj)

set_option backward.isDefEq.respectTransparency.types false in
/-- At the compiled mesh, for any values, from any memory with zero counters: every weakly fair execution of @main on
    the TensorCores terminates, and every final state has every array of the pipeline at what the library computes
    from the proof data and every other unscoped buffer as the region found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := u₀) (hu₀ := BI.Entails.refl _)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := hin m) (hout := hout m)
    (QY := fun c s => ∀ b ∈ Pipeline.restRefs sig spec0, s.mem ((c : Thread nD τ).loc b) = V m c b)
    (hY := fun c s' => by
      iintro ⟨-, HU, HSI⟩
      unfold Pipeline.unscopedRest
      imodintro
      iapply (pointsTo_read_all (Pipeline.restRefs sig spec0) (fun b => (c : Thread nD τ).loc b) (V m c) s')
      isplitl [HU] <;> iassumption)
    (hQ := fun s h => (show Pipeline.FramePost cfgs (dats m) 0 (V m) (⟨⟩, s) from fun c => ⟨(h c).1, (h c).2⟩))

/-- info: 'Cert.KernelIdeal.Frm.run_main' depends on axioms: [propext, Classical.choice, Quot.sound] -/
#guard_msgs in #print axioms run_main

/-! ## The frame -/

theorem arg3_rest : main_arg3 ∈ Pipeline.restRefs sig spec0 := by decide

/-- THE FRAME: the program runs to the end, nothing faults, and its four argument arrays end as they began. Three are
    arrays of input windows, which the pipeline never writes; the bias vector bypasses the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 2).trans (((dats m 0 c).arrAt_in 2 rfl _).trans ((A_eq m c 2).trans (V_main_arg0 m c))),
     ((h c).1 0).trans (((dats m 0 c).arrAt_in 0 rfl _).trans ((A_eq m c 0).trans (V_main_arg1 m c))),
     ((h c).1 3).trans (((dats m 0 c).arrAt_in 3 rfl _).trans ((A_eq m c 3).trans (V_main_arg2 m c))),
     ((h c).2 main_arg3 arg3_rest).trans (V_main_arg3 m c)⟩) (run_main m ρ)

end Cert.KernelIdeal.Frm

end
-- ==== Proof.KI.Value.lean ====
/-
  The idealized kernel's VALUE. On the extended reals the result array ends holding, at row r and column q,
      (Σ_k A[r, k] · S[k, q] + S[r, q]) + b[q],        S = relu(X · W) the support matrix,
  of the argument arrays as launched. Row r = 400 t + p is written by grid point t, at row p of its block: below row
  200 of the block by the first half, whose adjacency block is rows 400 t … 400 t + 199, from row 200 on by the second
  half, whose block is rows 400 t + 200 … 400 t + 399; the support row added is the row of the same number. The 25
  blocks tile the 10000 rows.
-/
import proofs.«147104_g16140487098643_cont_week2b_485_7_alg».proof.Proof.KI.BlkA
import proofs.«147104_g16140487098643_cont_week2b_485_7_alg».proof.Proof.KI.Pay
import proofs.«147104_g16140487098643_cont_week2b_485_7_alg».proof.Proof.KI.Launch
import proofs.«147104_g16140487098643_cont_week2b_485_7_alg».proof.Proof.Spec
import Idealize.ShloMosaic.Lib.StableHlo.Run

set_option maxRecDepth 16384

noncomputable section

namespace Cert.KernelIdeal.Frm

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

variable (m : (ℓ : Loc nD τ sig) → Buf (Elt Ideal) ℓ) (ρ : Dev nD → PrngReg)

set_option maxHeartbeats 400000

/-! ## The arrays and the blocks, by their literal types -/

abbrev featArr (c : Dev nD) : Vec Ideal S10000x128 .f32 := V m c main_arg0
abbrev adjArr (c : Dev nD) : Vec Ideal S10000x10000 .f32 := V m c main_arg1
abbrev wArr (c : Dev nD) : Vec Ideal S128x16 .f32 := V m c main_arg2
abbrev biasArr (c : Dev nD) : Vec Ideal S16 .f32 := V m c main_arg3
abbrev biasRowArr (c : Dev nD) : Vec Ideal S1x16 .f32 := V m c main_v0
abbrev adjLo (c : Dev nD) (t : Fin cfg0.N) : Vec Ideal S200x10000 .f32 := iblk m c 0 t
abbrev adjHi (c : Dev nD) (t : Fin cfg0.N) : Vec Ideal S200x10000 .f32 := iblk m c 1 t
abbrev featBlk (c : Dev nD) (t : Fin cfg0.N) : Vec Ideal S10000x128 .f32 := iblk m c 2 t
abbrev wBlk (c : Dev nD) (t : Fin cfg0.N) : Vec Ideal S128x16 .f32 := iblk m c 3 t
abbrev biasBlk (c : Dev nD) (t : Fin cfg0.N) : Vec Ideal S1x16 .f32 := iblk m c 4 t

/-! ## The index maps and the scratch offsets, decided over the 25 points -/

theorem index_facts : ∀ t : Fin cfg0.N,
    win0_0.index t (0 : Fin 2) = 2 * t.val ∧ win0_0.index t (1 : Fin 2) = 0
    ∧ win0_1.index t (0 : Fin 2) = 2 * t.val + 1 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem off_facts : ∀ t : Fin cfg0.N,
    k0_off1 (grid0.coords t) (0 : Fin 2) = 400 * t.val ∧ k0_off1 (grid0.coords t) (1 : Fin 2) = 0
    ∧ k0_off2 (grid0.coords t) (0 : Fin 2) = 400 * t.val + 200 ∧ k0_off2 (grid0.coords t) (1 : Fin 2) = 0 :=
  (by decide +kernel : ∀ t : Fin grid0.N, _)

/-! ## Each block read where its index map puts it -/

/-- Row y of the first adjacency block at point t is row 400 t + y of the adjacency matrix. -/
theorem adjLo_apply (c : Dev nD) (t : Fin cfg0.N) (y : Fin 200) (k : Fin 10000) (r : Fin 10000) (hr : r.val = 400 * t.val + y.val) :
    adjLo m c t (ix2 y k) = adjArr m c (ix2 r k) := by
  show V m c main_arg1 (((cfg0.win 0).blk t).view.emb (ix2 y k)) = V m c main_arg1 _
  obtain ⟨e0, e1, -⟩ := index_facts t
  refine congrArg (V m c main_arg1) (funext fun a => Fin.ext ?_)
  match a with
  | ⟨0, _⟩ => show win0_0.index t (0 : Fin 2) * 200 + 1 * y.val = r.val; omega
  | ⟨1, _⟩ => show win0_0.index t (1 : Fin 2) * 10000 + 1 * k.val = k.val; omega

/-- Row y of the second adjacency block at point t is row 400 t + 200 + y. -/
theorem adjHi_apply (c : Dev nD) (t : Fin cfg0.N) (y : Fin 200) (k : Fin 10000) (r : Fin 10000) (hr : r.val = 400 * t.val + 200 + y.val) :
    adjHi m c t (ix2 y k) = adjArr m c (ix2 r k) := by
  show V m c main_arg1 (((cfg0.win 1).blk t).view.emb (ix2 y k)) = V m c main_arg1 _
  obtain ⟨-, -, e0, e1, -⟩ := index_facts t
  refine congrArg (V m c main_arg1) (funext fun a => Fin.ext ?_)
  match a with
  | ⟨0, _⟩ => show win0_1.index t (0 : Fin 2) * 200 + 1 * y.val = r.val; omega
  | ⟨1, _⟩ => show win0_1.index t (1 : Fin 2) * 10000 + 1 * k.val = k.val; omega

/-- The feature matrix's one block is the matrix. -/
theorem featBlk_eq (c : Dev nD) (t : Fin cfg0.N) : featBlk m c t = featArr m c := by
  funext y
  show V m c main_arg0 (((cfg0.win 2).blk t).view.emb y) = V m c main_arg0 y
  obtain ⟨-, -, -, -, e0, e1, -⟩ := index_facts t
  refine congrArg (V m c main_arg0) (funext fun a => Fin.ext ?_)
  match a with
  | ⟨0, _⟩ => show win0_2.index t (0 : Fin 2) * 10000 + 1 * (y 0).val = (y 0).val; omega
  | ⟨1, _⟩ => show win0_2.index t (1 : Fin 2) * 128 + 1 * (y 1).val = (y 1).val; omega

/-- The weight matrix's one block is the matrix. -/
theorem wBlk_eq (c : Dev nD) (t : Fin cfg0.N) : wBlk m c t = wArr m c := by
  funext y
  show V m c main_arg2 (((cfg0.win 3).blk t).view.emb y) = V m c main_arg2 y
  obtain ⟨-, -, -, -, -, -, e0, e1, -⟩ := index_facts t
  refine congrArg (V m c main_arg2) (funext fun a => Fin.ext ?_)
  match a with
  | ⟨0, _⟩ => show win0_3.index t (0 : Fin 2) * 128 + 1 * (y 0).val = (y 0).val; omega
  | ⟨1, _⟩ => show win0_3.index t (1 : Fin 2) * 16 + 1 * (y 1).val = (y 1).val; omega

/-- The bias row's one block is the row. -/
theorem biasBlk_eq (c : Dev nD) (t : Fin cfg0.N) : biasBlk m c t = biasRowArr m c := by
  funext y
  show V m c main_v0 (((cfg0.win 4).blk t).view.emb y) = V m c main_v0 y
  obtain ⟨-, -, -, -, -, -, -, -, e0, e1, -⟩ := index_facts t
  refine congrArg (V m c main_v0) (funext fun a => Fin.ext ?_)
  match a with
  | ⟨0, _⟩ => show win0_4.index t (0 : Fin 2) * 1 + 1 * (y 0).val = (y 0).val; omega
  | ⟨1, _⟩ => show win0_4.index t (1 : Fin 2) * 16 + 1 * (y 1).val = (y 1).val; omega

/-- The bias row is the bias vector, reshaped by @main before the region. -/
theorem biasRow_apply (c : Dev nD) (q : Fin 16) : biasRowArr m c (ix2 (0 : Fin 1) q) = biasArr m c (ix1 q) := by
  have e : (V m c main_v0 : S1x16.Idx → EReal) = shapeCast S1x16 (m ((c : Thread nD τ).loc main_arg3)) shapeCasts_S16_S1x16 := by
    dsimp only [V, V0, hostOps0]; after_results; rfl
  show (V m c main_v0 : S1x16.Idx → EReal) (ix2 (0 : Fin 1) q) = m ((c : Thread nD τ).loc main_arg3) (ix1 q)
  rw [e]
  refine shapeCast_apply _ _ (ix2 (0 : Fin 1) q) (ix1 q) ?_
  rw [Shape.rowMajor_val_one, Shape.rowMajor_val_two]
  show q.val = 0 * 16 + q.val
  omega

/-- A row of the scratch at the first half's offset is row 400 t + y. -/
theorem ld_rowsLo (xs : Vec Ideal S10000x16 .f32) (t : Fin cfg0.N) (y : Fin 200) (q : Fin 16) (r : Fin 10000) (hr : r.val = 400 * t.val + y.val) :
    View.ld xs (rowsLo (grid0.coords t)) (ix2 y q) = xs (ix2 r q) := by
  obtain ⟨e0, e1, -⟩ := off_facts t
  show xs ((rowsLo (grid0.coords t)).idx (ix2 y q)) = xs (ix2 r q)
  refine congrArg xs (funext fun a => Fin.ext ?_)
  match a with
  | ⟨0, _⟩ => show k0_off1 (grid0.coords t) (0 : Fin 2) + 1 * y.val = r.val; omega
  | ⟨1, _⟩ => show k0_off1 (grid0.coords t) (1 : Fin 2) + 1 * q.val = q.val; omega

/-- A row of the scratch at the second half's offset is row 400 t + 200 + y. -/
theorem ld_rowsHi (xs : Vec Ideal S10000x16 .f32) (t : Fin cfg0.N) (y : Fin 200) (q : Fin 16) (r : Fin 10000) (hr : r.val = 400 * t.val + 200 + y.val) :
    View.ld xs (rowsHi (grid0.coords t)) (ix2 y q) = xs (ix2 r q) := by
  obtain ⟨-, -, e0, e1⟩ := off_facts t
  show xs ((rowsHi (grid0.coords t)).idx (ix2 y q)) = xs (ix2 r q)
  refine congrArg xs (funext fun a => Fin.ext ?_)
  match a with
  | ⟨0, _⟩ => show k0_off2 (grid0.coords t) (0 : Fin 2) + 1 * y.val = r.val; omega
  | ⟨1, _⟩ => show k0_off2 (grid0.coords t) (1 : Fin 2) + 1 * q.val = q.val; omega

/-! ## The support matrix the scratch holds -/

theorem supp_blk (c : Dev nD) : supp m c = k0_pay1 (featBlk m c t0) (wBlk m c t0) := by
  unfold supp
  exact soutA_eq c _ _ _ _ _ _ _ _ _ _ _ _ _ _ _ _ _ _ _ _ _

theorem supp_eq (c : Dev nD) : supp m c = k0_pay1 (featArr m c) (wArr m c) := by
  rw [supp_blk, featBlk_eq, wBlk_eq]

theorem supp_apply (c : Dev nD) (k : Fin 10000) (q : Fin 16) :
    supp m c (ix2 k q) = GraphConv.support (featArr m c) (wArr m c) k q := by
  rw [supp_eq]; exact pay1_apply _ _ k q

/-! ## The output's buffer after point t -/

theorem outAt_eq (c : Dev nD) (t : Fin cfg0.N) :
    outAt m c t = blkOut (grid0.coords t) (adjLo m c t) (adjHi m c t) (biasBlk m c t) (supp m c) := by
  by_cases hz : t.val = 0
  · obtain rfl : t = t0 := Fin.ext hz
    rw [outAt_zero m c t0 rfl, outA_eq, supp_blk]
  · rw [outAt_pos m c t hz]
    exact outB_eq c _ _ _ _ _ _ _ _ _ _ _ _ _ _ _ _ _ _ _ _ _ _

theorem stackG_lo (lo hi : Vec Ideal S200x16 .f32) (p : Fin 400) (q : Fin 16) (h : p.val < 200) :
    stackG lo hi (ix2 p q) = lo (ix2 (⟨p.val, h⟩ : Fin 200) q) := dif_pos h

theorem stackG_hi (lo hi : Vec Ideal S200x16 .f32) (p : Fin 400) (q : Fin 16) (h : ¬p.val < 200) :
    stackG lo hi (ix2 p q) = hi (ix2 (⟨p.val - 200, by have := p.isLt; omega⟩ : Fin 200) q) := dif_neg h

/-- Row p of point t's block is the layer's value at row 400 t + p. -/
theorem outAt_apply (c : Dev nD) (t : Fin cfg0.N) (p : Fin 400) (q : Fin 16) (r : Fin 10000) (hr : r.val = 400 * t.val + p.val) :
    outAt m c t (ix2 p q) = GraphConv.outK (featArr m c) (adjArr m c) (wArr m c) (biasArr m c) r q := by
  rw [outAt_eq]
  unfold blkOut
  rw [stack2_eq]
  unfold GraphConv.outK
  by_cases hp : p.val < 200
  · rw [stackG_lo _ _ p q hp, pay3_apply, ld_rowsLo (supp m c) t ⟨p.val, hp⟩ q r hr, supp_apply, biasBlk_eq, biasRow_apply]
    refine congrArg (fun s => (s + GraphConv.support (featArr m c) (wArr m c) r q) + biasArr m c (ix1 q)) ?_
    refine Finset.sum_congr rfl fun k _ => ?_
    rw [adjLo_apply m c t ⟨p.val, hp⟩ k r hr, supp_apply]
  · have hp' : p.val < 400 := p.isLt
    rw [stackG_hi _ _ p q hp, pay4_apply, ld_rowsHi (supp m c) t ⟨p.val - 200, by omega⟩ q r (by show r.val = 400 * t.val + 200 + (p.val - 200); omega),
      supp_apply, biasBlk_eq, biasRow_apply]
    refine congrArg (fun s => (s + GraphConv.support (featArr m c) (wArr m c) r q) + biasArr m c (ix1 q)) ?_
    refine Finset.sum_congr rfl fun k _ => ?_
    rw [adjHi_apply m c t ⟨p.val - 200, by omega⟩ k r (by show r.val = 400 * t.val + 200 + (p.val - 200); omega), supp_apply]

/-! ## From blocks to the array -/

/-- THE RESULT as one function of the argument arrays as launched. -/
def Gout (c : Dev nD) : Vec Ideal S10000x16 .f32 := fun i =>
  GraphConv.outK (featArr m c) (adjArr m c) (wArr m c) (biasArr m c) (⟨(i 0).val, idx2_lt0 i⟩ : Fin 10000) (⟨(i 1).val, idx2_lt1 i⟩ : Fin 16)

/-- What point t writes back is block t of `Gout`. -/
theorem flushed5_eq (c : Dev nD) (t : Fin cfg0.N) :
    (dats m 0 c).flushed 5 t = ((cfg0.win 5).blk t).view.read (Elt Ideal) (Gout m c) := by
  show (cfg0.win 5).cut (grid0.coords t) ((dats m 0 c).after 5 t) = _
  rw [after_5]
  funext j
  obtain ⟨p, q, rfl⟩ : ∃ (p : Fin 400) (q : Fin 16), j = ix2 p q := ⟨j 0, j 1, eq_ix2 j⟩
  have ht : t.val < 25 := lt_of_lt_of_eq t.isLt N_0
  have hp : p.val < 400 := p.isLt
  obtain ⟨-, -, -, -, -, -, -, -, -, -, e0, e1⟩ := index_facts t
  show outAt m c t (ix2 p q) = Gout m c (((cfg0.win 5).blk t).view.emb (ix2 p q))
  rw [outAt_apply m c t p q ⟨400 * t.val + p.val, by omega⟩ rfl]
  unfold Gout
  congr 1
  · apply Fin.ext
    show 400 * t.val + p.val = win0_5.index t (0 : Fin 2) * 400 + 1 * p.val
    omega
  · apply Fin.ext
    show q.val = win0_5.index t (1 : Fin 2) * 16 + 1 * q.val
    omega

/-- An index of the result array is in point t's block iff each coordinate is in the block's range on its axis. -/
theorem mem_blk5 (t : Fin cfg0.N) (i : S10000x16.Idx) :
    i ∈ ((cfg0.win 5).blk t).view.set ↔ ∀ a : Fin 2, win0_5.index t a * S400x16.size a ≤ (i a).val ∧ (i a).val < win0_5.index t a * S400x16.size a + S400x16.size a := by
  show i ∈ ((View.whole main_v1).slice (win0_5.rect t)).set ↔ _
  rw [View.set_slice_whole, Rect.mem_set_unit]
  exact Iff.rfl

/-- Every row is in some point's block: row r in point r / 400's. -/
theorem cover5 (i : S10000x16.Idx) : ∃ t : Fin cfg0.N, (cfg0.win 5).flush t = true ∧ i ∈ ((cfg0.win 5).blk t).view.set := by
  have hi0 : (i 0).val < 10000 := (i 0).isLt
  have hi1 : (i 1).val < 16 := (i 1).isLt
  have hN : cfg0.N = 25 := N_0
  refine ⟨⟨(i 0).val / 400, by omega⟩, flush0_5 _, ?_⟩
  rw [mem_blk5]
  obtain ⟨-, -, -, -, -, -, -, -, -, -, e0, e1⟩ := index_facts ⟨(i 0).val / 400, by omega⟩
  intro a
  match a with
  | ⟨0, _⟩ =>
    show win0_5.index ⟨(i 0).val / 400, _⟩ (0 : Fin 2) * 400 ≤ (i 0).val ∧ (i 0).val < win0_5.index ⟨(i 0).val / 400, _⟩ (0 : Fin 2) * 400 + 400
    rw [e0]; show (i 0).val / 400 * 400 ≤ (i 0).val ∧ (i 0).val < (i 0).val / 400 * 400 + 400; omega
  | ⟨1, _⟩ =>
    show win0_5.index ⟨(i 0).val / 400, _⟩ (1 : Fin 2) * 16 ≤ (i 1).val ∧ (i 1).val < win0_5.index ⟨(i 0).val / 400, _⟩ (1 : Fin 2) * 16 + 16
    rw [e1]; omega

/-- THE RESULT ARRAY after the run. -/
theorem final5 (c : Dev nD) : (dats m 0 c).arrAt 5 cfg0.N = Gout m c :=
  (dats m 0 c).arrAt_eq_of_cover 5 (Gout m c) (fun t _ => flushed5_eq m c t) (cover5)

/-! ## The run, read -/

/-- The run re-posted: the result array at `Gout`, the four arguments unchanged. -/
theorem run_value : θ_run defs (onTc (τ := τ) (main (F := Ideal))) ⟨m, fun _ => 0, ρ⟩ fun r => ∀ c : Dev nD,
      r.2.mem ((c.tc : Thread nD τ).loc main_v1) = Gout m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).1 5).trans (final5 m c),
     ((h c).1 2).trans (((dats m 0 c).arrAt_in 2 rfl _).trans ((A_eq m c 2).trans (V_main_arg0 m c))),
     ((h c).1 0).trans (((dats m 0 c).arrAt_in 0 rfl _).trans ((A_eq m c 0).trans (V_main_arg1 m c))),
     ((h c).1 3).trans (((dats m 0 c).arrAt_in 3 rfl _).trans ((A_eq m c 3).trans (V_main_arg2 m c))),
     ((h c).2 main_arg3 arg3_rest).trans (V_main_arg3 m c)⟩) (run_main m ρ)

end Cert.KernelIdeal.Frm

end
-- ==== Proof.RefRead.lean ====
/-
  The reference program read at one element of its result. Its last stage, at row `p` and column `q`, is
    Σ_k (A[p, k] + e[p, k]) · max (Σ_l X[k, l] · W[l, q]) 0 + b[q],
  where `e` is the identity matrix as the program builds it: the one-bit answer of "row counter + 0 = column counter"
  on 32-bit words, converted to a float as an unsigned integer. Both counters stay below 10000 < 2^32, so the words
  are equal exactly when the coordinates are, and `e[p, k]` is the real number `if p = k then 1 else 0`. With the
  stages' index maps identified with coordinate pairs, the element is `GraphConv.outR` term for term.
-/
import proofs.«147104_g16140487098643_cont_week2b_485_7_alg».proof.Defs
import proofs.«147104_g16140487098643_cont_week2b_485_7_alg».proof.Proof.Gen.ReferenceIdeal.Run
import proofs.«147104_g16140487098643_cont_week2b_485_7_alg».proof.Proof.Gen.ReferenceIdeal.Read
import proofs.«147104_g16140487098643_cont_week2b_485_7_alg».proof.Proof.Spec
import Idealize.ShloMosaic.Lib.StableHlo.Predicate

noncomputable section

open scoped BigOperators

namespace Cert.ReferenceIdeal.RefValue

open Cert.ReferenceIdeal Cert.ReferenceIdeal.Read Idealize.ShloMosaic Idealize.ShloMosaic.ValueIdx

/-! ## The identity matrix, one entry -/

/-- Two coordinates below 10000 give the same 32-bit word exactly when they are equal: neither wraps. -/
theorem word_eq_iff (p k : Fin 10000) : BitVec.ofNat 32 p.val = BitVec.ofNat 32 k.val ↔ p = k := by
  constructor
  · intro h
    have h' := congrArg BitVec.toNat h
    simp only [BitVec.toNat_ofNat] at h'
    have hp := p.isLt
    have hk := k.isLt
    apply Fin.ext
    omega
  · rintro rfl; rfl

/-- The entry of the identity matrix at row `p`, column `k`: the comparison bit of `p + 0` against `k`, read as an
    unsigned integer, is the real number 1 on the diagonal and 0 off it. -/
theorem eye_word (p k : Fin 10000) :
    FloatOps.uitofp (F := Ideal) .f32 (IntOp.cmpi .eq (IntOp.addi (BitVec.ofNat 32 p.val) 0#32) (BitVec.ofNat 32 k.val))
      = (((if p = k then 1 else 0 : ℝ)) : EReal) := by
  show (((IntOp.cmpi .eq (IntOp.addi (BitVec.ofNat 32 p.val) 0#32) (BitVec.ofNat 32 k.val)).toNat : ℝ) : EReal) = _
  unfold IntOp.addi
  rw [BitVec.add_zero]
  by_cases h : p = k
  · rw [if_pos h, StableHlo.Predicate.cmpi_eq_iff.mpr ((word_eq_iff p k).mpr h)]
    norm_num
  · rw [if_neg h, ValueIdx.eq_zero_of_ne_one (fun hc => h ((word_eq_iff p k).mp (StableHlo.Predicate.cmpi_eq_iff.mp hc)))]
    norm_num

/-- The same entry with the row written as the first coordinate of the result index `(p, q)`. -/
theorem eye_at (p : Fin 10000) (q : Fin 16) (k : Fin 10000) :
    FloatOps.uitofp (F := Ideal) .f32 (IntOp.cmpi .eq (IntOp.addi (BitVec.ofNat 32 (ix2 p q 0).val) 0#32) (BitVec.ofNat 32 k.val))
      = (((if p = k then 1 else 0 : ℝ)) : EReal) := eye_word p k

/-! ## The stages' index maps as coordinate pairs -/

/-- The second product reads its left operand, at result index `(p, q)` and contraction index `k`, at `(p, k)` … -/
theorem lidx9 (p : Fin 10000) (q : Fin 16) (k : Fin 10000) : lidx_main_v9 (ix2 p q) k = ix2 p k :=
  funext fun a => Fin.ext (by match a with | ⟨0, _⟩ => rfl | ⟨1, _⟩ => rfl)
/-- … and its right operand at `(k, q)`. -/
theorem ridx9 (p : Fin 10000) (q : Fin 16) (k : Fin 10000) : ridx_main_v9 (ix2 p q) k = ix2 k q :=
  funext fun a => Fin.ext (by match a with | ⟨0, _⟩ => rfl | ⟨1, _⟩ => rfl)
/-- The first product reads its left operand, at result index `(k, q)` and contraction index `l`, at `(k, l)` … -/
theorem lidx0 (k : Fin 10000) (q : Fin 16) (l : Fin 128) : lidx_main_v0 (ix2 k q) l = ix2 k l :=
  funext fun a => Fin.ext (by match a with | ⟨0, _⟩ => rfl | ⟨1, _⟩ => rfl)
/-- … and its right operand at `(l, q)`. -/
theorem ridx0 (k : Fin 10000) (q : Fin 16) (l : Fin 128) : ridx_main_v0 (ix2 k q) l = ix2 l q :=
  funext fun a => Fin.ext (by match a with | ⟨0, _⟩ => rfl | ⟨1, _⟩ => rfl)
/-- The bias, broadcast along the rows in two steps, is read at the column. -/
theorem idxb (p : Fin 10000) (q : Fin 16) : idx_main_v10 (idx_main_v11 (ix2 p q)) = ix1 q :=
  funext fun a => Fin.ext (by match a with | ⟨0, _⟩ => rfl)

/-! ## The reference's result, element by element -/

/-- The reference's result at row `p`, column `q` is `GraphConv.outR`: the identity added to the adjacency matrix, the
    product with the support matrix relu(X · W), then the bias. -/
theorem ref_eq (X : (⟨S10000x128, .f32⟩ : BufTy).Contents (Elt Ideal)) (A : (⟨S10000x10000, .f32⟩ : BufTy).Contents (Elt Ideal))
    (W : (⟨S128x16, .f32⟩ : BufTy).Contents (Elt Ideal)) (b : (⟨S16, .f32⟩ : BufTy).Contents (Elt Ideal)) (p : Fin 10000) (q : Fin 16) :
    Cert.ReferenceIdeal.Read.val_main_v12 (F := Ideal) X A W b (ValueIdx.ix2 p q) = GraphConv.outR X A W b p q := by
  rw [val_main_v12_apply, val_main_v9_apply, val_main_v11_apply, val_main_v10_apply]
  simp only [val_main_v8_apply, val_main_v7_apply, val_main_v6_apply, val_main_v5_apply, val_main_v4_apply,
    val_main_c_apply, val_main_v3_apply, val_main_v2_apply, val_main_v1_apply, val_main_v0_apply,
    val_main_call0_v0_apply, val_main_call0_cst_apply]
  simp only [lidx9, ridx9, lidx0, ridx0, idxb, eye_at, Ideal.addf_def, Ideal.mulf_def, Ideal.maximumf_def, Ideal.ofBits_def,
    Ideal.ofBits_zero_f32]
  unfold GraphConv.outR GraphConv.support
  rfl

end Cert.ReferenceIdeal.RefValue

end
-- ==== Proof.Finite.lean ====
/-
  The finiteness precondition, read back. The predicate asks, for each input array, that every element's absolute
  value be strictly below +inf, and joins the four answers by `and`. On the extended reals `|x| < +inf` holds exactly
  when `x` is neither infinity, that is, when `x` is a real number. So a predicate that is true gives every element of
  the feature matrix, the adjacency matrix and the weights as a real number.
-/
import proofs.«147104_g16140487098643_cont_week2b_485_7_alg».proof.Pre_finite_inputs
import proofs.«147104_g16140487098643_cont_week2b_485_7_alg».proof.Proof.Gen.Pre_finite_inputs
import Idealize.ShloMosaic.Lib.ReduceAll
import Idealize.ShloMosaic.Lib.ValueIdx
import Idealize.ShloMosaic.Lib.StableHlo.Predicate
import Idealize.ShloMosaic.PureOps.Ideal.Laws

noncomputable section

namespace Cert.FiniteInputs

open Idealize.ShloMosaic Idealize.ShloMosaic.ValueIdx Cert.Pre_finite_inputs

/-- The scalar shape has one index. -/
instance subsingleton_scalar_idx : Subsingleton S_.Idx := ⟨fun a b => funext fun d => d.elim0⟩

/-- An extended real whose absolute value compares strictly below the pattern of +inf is a real number: at either
    infinity the absolute value is +inf itself. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  have hlt : max x (-x) < ⊤ := by
    simpa only [Ideal.cmp, StableHlo.Predicate.ofBool_eq_one_iff, decide_eq_true_eq] using h
  induction x using EReal.rec with
  | bot => simp at hlt
  | coe r => exact ⟨r, rfl⟩
  | top => simp at hlt

/-- A true finiteness predicate gives every element of X, A and W as a real number. -/
theorem real_of_pre [Cert.Pre_finite_inputs.Facts] (X : FVec Ideal Cert.Pre_finite_inputs.S10000x128 .f32) (A : FVec Ideal Cert.Pre_finite_inputs.S10000x10000 .f32)
    (W : FVec Ideal Cert.Pre_finite_inputs.S128x16 .f32) (b : FVec Ideal Cert.Pre_finite_inputs.S16 .f32)
    (h : Cert.Pre_finite_inputs.fn (F := Ideal) X A W b = fun _ => 1#1) :
    (∀ i, ∃ r : ℝ, X i = (r : EReal)) ∧ (∀ i, ∃ r : ℝ, A i = (r : EReal)) ∧ (∀ i, ∃ r : ℝ, W i = (r : EReal)) := by
  have h0 := congrFun h ValueIdx.ix0
  dsimp only [fn, fn_part1] at h0
  obtain ⟨h123, _⟩ := IntOp.andi_eq_one.1 h0
  obtain ⟨h12, hW⟩ := IntOp.andi_eq_one.1 h123
  obtain ⟨hX, hA⟩ := IntOp.andi_eq_one.1 h12
  refine ⟨fun i => real_of_abs_lt (X i) ?_, fun i => real_of_abs_lt (A i) ?_, fun i => real_of_abs_lt (W i) ?_⟩
  · exact Host.reduce_andi_all _ _ _ _ _ hX i
  · exact Host.reduce_andi_all _ _ _ _ _ hA i
  · exact Host.reduce_andi_all _ _ _ _ _ hW i

end Cert.FiniteInputs

end
-- ==== Proof.SpecLaw.lean ====
/-
  The algebraic law of the graph-convolution layer: adding the node's own support row after the product with the
  adjacency matrix is the same as adding the identity to the adjacency matrix before it,
      (Σ_k A[p, k] · S[k, q] + S[p, q]) + b[q]  =  Σ_k (A[p, k] + [p = k]) · S[k, q] + b[q],
  when every entry of X, A and W is a real number. On the extended reals the product does not distribute over a sum
  in general, so the proof goes through the reals: every entry of the support matrix S = relu(X · W) is then a real
  (a finite sum of products of reals, then the larger of it and 0), both sides up to the bias are coercions of real
  expressions, and over the reals  Σ_k (a_k + [p = k]) · s_k = Σ_k a_k · s_k + s_p  since the sum against the
  indicator of p keeps its p-th term only. The bias b[q] is not assumed finite: it is the same trailing summand on
  both sides.
-/
import proofs.«147104_g16140487098643_cont_week2b_485_7_alg».proof.Proof.Spec
import Mathlib.Data.EReal.Basic
import Mathlib.Algebra.BigOperators.Group.Finset.Basic
import Mathlib.Algebra.BigOperators.Group.Finset.Piecewise
import Mathlib.Algebra.BigOperators.Ring.Finset

noncomputable section

open scoped BigOperators

namespace GraphConv

open Idealize.ShloMosaic Idealize.ShloMosaic.ValueIdx

/-- A finite sum of coerced reals is the coercion of the real sum. -/
theorem coe_finset_sum {ι : Type} (s : Finset ι) (f : ι → ℝ) :
    (∑ i ∈ s, ((f i : ℝ) : EReal)) = ((∑ i ∈ s, f i : ℝ) : EReal) := by
  classical
  refine Finset.induction_on s ?_ ?_
  · rw [Finset.sum_empty, Finset.sum_empty, EReal.coe_zero]
  · intro a t ha ih
    rw [Finset.sum_insert ha, Finset.sum_insert ha, ih, EReal.coe_add]

/-- The larger of a coerced real and 0 is the coercion of the larger of the real and 0. -/
theorem coe_max_zero (r : ℝ) : max ((r : ℝ) : EReal) 0 = ((max r 0 : ℝ) : EReal) := by
  rcases le_total r 0 with h | h
  · have h' : ((r : ℝ) : EReal) ≤ 0 := by rw [← EReal.coe_zero]; exact EReal.coe_le_coe_iff.mpr h
    rw [max_eq_right h, max_eq_right h', EReal.coe_zero]
  · have h' : (0 : EReal) ≤ ((r : ℝ) : EReal) := by rw [← EReal.coe_zero]; exact EReal.coe_le_coe_iff.mpr h
    rw [max_eq_left h, max_eq_left h']

/-- Over the reals: the sum against the adjacency row plus the p-th term is the sum against the row with the
    indicator of p added, because the indicator's own sum keeps the p-th term only. -/
theorem real_law {n : Nat} (a s : Fin n → ℝ) (p : Fin n) :
    (∑ k : Fin n, a k * s k) + s p = ∑ k : Fin n, (a k + (if p = k then 1 else 0 : ℝ)) * s k := by
  have hδ : (∑ k : Fin n, (if p = k then 1 else 0 : ℝ) * s k) = s p := by
    have : ∀ k : Fin n, (if p = k then 1 else 0 : ℝ) * s k = if p = k then s k else 0 := by
      intro k; split <;> simp
    rw [Finset.sum_congr rfl (fun k _ => this k), Finset.sum_ite_eq]
    simp
  rw [Finset.sum_congr rfl (fun k _ => add_mul (a k) (if p = k then 1 else 0 : ℝ) (s k)),
    Finset.sum_add_distrib, hδ]

/-- The same law for coerced reals on the extended reals: both sides are coercions of the real expressions. -/
theorem ereal_law {n : Nat} (a s : Fin n → ℝ) (p : Fin n) :
    (∑ k : Fin n, ((a k : ℝ) : EReal) * ((s k : ℝ) : EReal)) + ((s p : ℝ) : EReal)
      = ∑ k : Fin n, (((a k : ℝ) : EReal) + (((if p = k then 1 else 0 : ℝ)) : EReal)) * ((s k : ℝ) : EReal) := by
  have hl : (∑ k : Fin n, ((a k : ℝ) : EReal) * ((s k : ℝ) : EReal)) = ((∑ k : Fin n, a k * s k : ℝ) : EReal) := by
    rw [← coe_finset_sum]
    exact Finset.sum_congr rfl (fun k _ => (EReal.coe_mul (a k) (s k)).symm)
  have hr : (∑ k : Fin n, (((a k : ℝ) : EReal) + (((if p = k then 1 else 0 : ℝ)) : EReal)) * ((s k : ℝ) : EReal))
      = ((∑ k : Fin n, (a k + (if p = k then 1 else 0 : ℝ)) * s k : ℝ) : EReal) := by
    rw [← coe_finset_sum]
    exact Finset.sum_congr rfl (fun k _ => by rw [EReal.coe_mul, EReal.coe_add])
  rw [hl, hr, ← EReal.coe_add, real_law a s p]

/-- Every entry of the support matrix is a real when every entry of X and of W is. -/
theorem support_real (X : SX.Idx → EReal) (W : SW.Idx → EReal)
    (hX : ∀ i, ∃ r : ℝ, X i = (r : EReal)) (hW : ∀ i, ∃ r : ℝ, W i = (r : EReal))
    (k : Fin 10000) (q : Fin 16) : ∃ r : ℝ, support X W k q = (r : EReal) := by
  choose x hx using hX
  choose w hw using hW
  refine ⟨max (∑ l : Fin 128, x (ix2 k l) * w (ix2 l q)) 0, ?_⟩
  have hsum : (∑ l : Fin 128, X (ix2 k l) * W (ix2 l q))
      = ((∑ l : Fin 128, x (ix2 k l) * w (ix2 l q) : ℝ) : EReal) := by
    rw [← coe_finset_sum]
    exact Finset.sum_congr rfl (fun l _ => by rw [hx, hw, EReal.coe_mul])
  unfold support
  rw [hsum, coe_max_zero]

/-- The two arrangements of the layer agree at every index when X, A and W are real. -/
theorem outK_eq_outR (X : SX.Idx → EReal) (A : SA.Idx → EReal) (W : SW.Idx → EReal) (b : SB.Idx → EReal)
    (hX : ∀ i, ∃ r : ℝ, X i = (r : EReal)) (hA : ∀ i, ∃ r : ℝ, A i = (r : EReal)) (hW : ∀ i, ∃ r : ℝ, W i = (r : EReal))
    (p : Fin 10000) (q : Fin 16) : outK X A W b p q = outR X A W b p q := by
  choose a ha using hA
  choose s hs using fun k : Fin 10000 => support_real X W hX hW k q
  have hl : (∑ k : Fin 10000, A (ix2 p k) * support X W k q)
      = ∑ k : Fin 10000, ((a (ix2 p k) : ℝ) : EReal) * ((s k : ℝ) : EReal) :=
    Finset.sum_congr rfl (fun k _ => by rw [ha, hs])
  have hr : (∑ k : Fin 10000, (A (ix2 p k) + (((if p = k then 1 else 0 : ℝ)) : EReal)) * support X W k q)
      = ∑ k : Fin 10000, (((a (ix2 p k) : ℝ) : EReal) + (((if p = k then 1 else 0 : ℝ)) : EReal)) * ((s k : ℝ) : EReal) :=
    Finset.sum_congr rfl (fun k _ => by rw [ha, hs])
  unfold outK outR
  rw [hl, hr, hs p]
  exact congrArg (· + b (ix1 q)) (ereal_law (fun k => a (ix2 p k)) s p)

end GraphConv

end
-- ==== Proof.lean ====
/-
  The certificate of the fused graph-convolution kernel against its reference.
  Both compute out = (A + I) · relu(X · W) + b. The kernel never forms A + I: it streams A through a grid of 25 points,
  keeps the support matrix S = relu(X · W) in a scratch from the first point on, and adds each row's own support row
  to its product, out[r, q] = (Σ_k A[r, k] · S[k, q] + S[r, q]) + b[q]; the reference computes
  Σ_k (A[r, k] + [r = k]) · S[k, q] + b[q]. On the extended reals the two agree because every input is a real number
  (the precondition), which makes S real and lets the product distribute over A[r, k] + [r = k].
  The frames: each kernel program runs to the end on every weakly fair execution and leaves its arguments unchanged
  (the adjacency matrix is read through two windows at half shares, the bias vector bypasses the region); the
  reference is a straight line of host operations. The idealization rewrote nothing, so there is nothing to preserve.
-/
import proofs.«147104_g16140487098643_cont_week2b_485_7_alg».proof.Defs
import proofs.«147104_g16140487098643_cont_week2b_485_7_alg».proof.Proof.Gen.Kernel
import proofs.«147104_g16140487098643_cont_week2b_485_7_alg».proof.Proof.Gen.KernelIdeal
import proofs.«147104_g16140487098643_cont_week2b_485_7_alg».proof.Proof.Gen.ReferenceIdeal
import proofs.«147104_g16140487098643_cont_week2b_485_7_alg».proof.Proof.Gen.Pre_finite_inputs
import proofs.«147104_g16140487098643_cont_week2b_485_7_alg».proof.Proof.Gen.ReferenceIdeal.Run
import proofs.«147104_g16140487098643_cont_week2b_485_7_alg».proof.Proof.Gen.ReferenceIdeal.Read
import proofs.«147104_g16140487098643_cont_week2b_485_7_alg».proof.Proof.K.Launch
import proofs.«147104_g16140487098643_cont_week2b_485_7_alg».proof.Proof.KI.Value
import proofs.«147104_g16140487098643_cont_week2b_485_7_alg».proof.Proof.RefRead
import proofs.«147104_g16140487098643_cont_week2b_485_7_alg».proof.Proof.Finite
import proofs.«147104_g16140487098643_cont_week2b_485_7_alg».proof.Proof.SpecLaw
import Idealize.ShloMosaic.Adequacy
import Idealize.ShloMosaic.Init

noncomputable section

namespace Cert.Proof

open Idealize.ShloMosaic Idealize.SL.Sem Idealize.ShloMosaic.ValueIdx

/-- The word-level kernel runs and leaves its arguments unchanged. -/
theorem frame_k : Cert.frame_Kernel := fun m ρ _ => Cert.Kernel.Frm.frame m ρ

/-- So does the idealized kernel. -/
theorem frame_ki : Cert.frame_KernelIdeal := fun m ρ _ => Cert.KernelIdeal.Frm.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- At `Ideal` the kernel's result array ends at (Σ_k A·S + S) + b row by row and the reference's at Σ_k (A + I)·S + b,
    of arguments that agree and are real numbers: one function. -/
theorem algebraic : Cert.algebraic_KernelIdeal_ReferenceIdeal := by
  intro m ρ m' ρ' hpre hagree
  refine ⟨fun c => Cert.KernelIdeal.Frm.Gout m c, Cert.KernelIdeal.Frm.run_value m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v12_eq (F := Ideal) _ _ _ _).trans ?_
  rw [(hagree c).1, (hagree c).2.1, (hagree c).2.2.1, (hagree c).2.2.2]
  obtain ⟨hX, hA, hW⟩ := Cert.FiniteInputs.real_of_pre _ _ _ _ (hpre c)
  funext i
  obtain ⟨p, q, rfl⟩ : ∃ (p : Fin 10000) (q : Fin 16), i = ix2 p q := ⟨i 0, i 1, eq_ix2 i⟩
  rw [Cert.ReferenceIdeal.RefValue.ref_eq]
  exact (GraphConv.outK_eq_outR _ _ _ _ hX hA hW p q).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
